-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S16x2048 : Shape := ⟨2, ![16, 2048]⟩
abbrev S16 : Shape := ⟨1, ![16]⟩
abbrev S256x2048 : Shape := ⟨2, ![256, 2048]⟩
abbrev S256 : Shape := ⟨1, ![256]⟩
abbrev S1024x2048 : Shape := ⟨2, ![1024, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part2 {F : FTy → Type} [FloatOps F] (main_arg7 : FVec F S1024x2048 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  main_v38

def fn_part1 {F : FTy → Type} [FloatOps F] (main_arg4 : FVec F S256 .f32) (main_arg5 : FVec F S256x2048 .f32) (main_arg6 : FVec F S256 .f32) (main_arg7 : FVec F S1024x2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S4x4096x2048 .f32) (main_arg1 : FVec F S16x2048 .f32) (main_arg2 : FVec F S16 .f32) (main_arg3 : FVec F S256x2048 .f32) (main_arg4 : FVec F S256 .f32) (main_arg5 : FVec F S256x2048 .f32) (main_arg6 : FVec F S256 .f32) (main_arg7 : FVec F S1024x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_arg7 main_v13 main_v16
-- ==== Kernel.lean ====
abbrev S4x4096x2048 : Shape := ⟨3, ![4, 4096, 2048]⟩
abbrev S16x2048 : Shape := ⟨2, ![16, 2048]⟩
abbrev S16 : Shape := ⟨1, ![16]⟩
abbrev S256x2048 : Shape := ⟨2, ![256, 2048]⟩
abbrev S256 : Shape := ⟨1, ![256]⟩
abbrev S1024x2048 : Shape := ⟨2, ![1024, 2048]⟩
abbrev S16x1 : Shape := ⟨2, ![16, 1]⟩
abbrev S256x1 : Shape := ⟨2, ![256, 1]⟩
abbrev S4x3088x4096 : Shape := ⟨3, ![4, 3088, 4096]⟩
abbrev S1x256x2048 : Shape := ⟨3, ![1, 256, 2048]⟩
abbrev S1x3088x256 : Shape := ⟨3, ![1, 3088, 256]⟩
abbrev S16x256 : Shape := ⟨2, ![16, 256]⟩
abbrev S256x256 : Shape := ⟨2, ![256, 256]⟩
abbrev S1024x256 : Shape := ⟨2, ![1024, 256]⟩
abbrev S64x256 : Shape := ⟨2, ![64, 256]⟩
abbrev S3088x256 : Shape := ⟨2, ![3088, 256]⟩

abbrev nBuf : Space → Nat
  | .hbm => 16
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S256x2048, .f32⟩
  | .hbm, ⟨4, _⟩ => ⟨S256, .f32⟩
  | .hbm, ⟨5, _⟩ => ⟨S256x2048, .f32⟩
  | .hbm, ⟨6, _⟩ => ⟨S256, .f32⟩
  | .hbm, ⟨7, _⟩ => ⟨S1024x2048, .f32⟩
  | .hbm, ⟨8, _⟩ => ⟨S16x2048, .bf16⟩
  | .hbm, ⟨9, _⟩ => ⟨S256x2048, .bf16⟩
  | .hbm, ⟨10, _⟩ => ⟨S256x2048, .bf16⟩
  | .hbm, ⟨11, _⟩ => ⟨S1024x2048, .bf16⟩
  | .hbm, ⟨12, _⟩ => ⟨S16x1, .f32⟩
  | .hbm, ⟨13, _⟩ => ⟨S256x1, .f32⟩
  | .hbm, ⟨14, _⟩ => ⟨S256x1, .f32⟩
  | .hbm, ⟨15, _⟩ => ⟨S4x3088x4096, .f32⟩
  | .local _ .vmem, ⟨0, _⟩ => ⟨S1x256x2048, .f32⟩
  | .local _ .vmem, ⟨1, _⟩ => ⟨S1x256x2048, .f32⟩
  | .local _ .vmem, ⟨2, _⟩ => ⟨S16x2048, .bf16⟩
  | .local _ .vmem, ⟨3, _⟩ => ⟨S16x1, .f32⟩
  | .local _ .vmem, ⟨4, _⟩ => ⟨S256x2048, .bf16⟩
  | .local _ .vmem, ⟨5, _⟩ => ⟨S256x1, .f32⟩
  | .local _ .vmem, ⟨6, _⟩ => ⟨S256x2048, .bf16⟩
  | .local _ .vmem, ⟨7, _⟩ => ⟨S256x1, .f32⟩
  | .local _ .vmem, ⟨8, _⟩ => ⟨S1024x2048, .bf16⟩
  | .local _ .vmem, ⟨9, _⟩ => ⟨S1x3088x256, .f32⟩
  | .local _ .vmem, ⟨10, _⟩ => ⟨S1x3088x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x3088x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S16_S16x1 : S16.ShapeCasts S16x1
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x256 : S16x1.Broadcasts S16x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  slices_S256x256_o0_0_S64x256 : S256x256.Slices ![0, 0] S64x256
  slices_S256x256_o64_0_S64x256 : S256x256.Slices ![64, 0] S64x256
  slices_S256x256_o128_0_S64x256 : S256x256.Slices ![128, 0] S64x256
  slices_S256x256_o192_0_S64x256 : S256x256.Slices ![192, 0] S64x256
  concatenates_S64x256_S64x256_S64x256_S64x256_S64x256_S64x256_S64x256_S64x256_S64x256_S64x256_S64x256_S64x256_S64x256_S64x256_S64x256_S64x256_S1024x256_d0 : Shape.Concatenates [S64x256, S64x256, S64x256, S64x256, S64x256, S64x256, S64x256, S64x256, S64x256, S64x256, S64x256, S64x256, S64x256, S64x256, S64x256, S64x256] S1024x256 0
  concatenates_S1024x256_S1024x256_S1024x256_S16x256_S3088x256_d0 : Shape.Concatenates [S1024x256, S1024x256, S1024x256, S16x256] S3088x256 0
  inb_S1x3088x256_S1x3088x256_0_0_0 : ∀ a, (![0, 0, 0] : Fin 3 → Nat) a + S1x3088x256.size a ≤ S1x3088x256.size a
  h_S1x3088x256 : 0 < S1x3088x256.numel
  shapeCasts_S1x3088x256_S3088x256 : S1x3088x256.ShapeCasts S3088x256
  shapeCasts_S3088x256_S1x3088x256 : S3088x256.ShapeCasts S1x3088x256
  dot_S16x2048_S256x2048_S16x256_1_1_0_0_n_n_wf : DotDims.WF S16x2048 S256x2048 S16x256 [1] [1] [0] [0] [] []
  dot_S256x2048_S256x2048_S256x256_1_1_0_0_n_n_wf : DotDims.WF S256x2048 S256x2048 S256x256 [1] [1] [0] [0] [] []
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x4096x2048.size a
  hwx0_0 : ∀ i : grid0.Coords, EltTy.bits .f32 = 32 ∨ (Rect.block (s := S4x4096x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .bf16 = 32 ∨ (Rect.block (s := S16x2048) S16x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S256x2048.size a
  hwx0_5 : ∀ i : grid0.Coords, EltTy.bits .bf16 = 32 ∨ (Rect.block (s := S256x2048) S256x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S1024x2048.size a
  hwx0_7 : ∀ i : grid0.Coords, EltTy.bits .bf16 = 32 ∨ (Rect.block (s := S1024x2048) S1024x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x3088x256.size a ≤ S4x3088x4096.size a
  hwx0_8 : ∀ i : grid0.Coords, EltTy.bits .f32 = 32 ∨ (Rect.block (s := S4x3088x4096) S1x3088x256.size (cc0_transform_8 i) (hinb0_8 i)).WholeWords (EltTy.packing .f32)

variable [Facts₀]

def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x3088x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S16x2048 : Shape := ⟨2, ![16, 2048]⟩
abbrev S16 : Shape := ⟨1, ![16]⟩
abbrev S256x2048 : Shape := ⟨2, ![256, 2048]⟩
abbrev S256 : Shape := ⟨1, ![256]⟩
abbrev S1024x2048 : Shape := ⟨2, ![1024, 2048]⟩
abbrev S16x4x4096 : Shape := ⟨3, ![16, 4, 4096]⟩
abbrev S4x16x4096 : Shape := ⟨3, ![4, 16, 4096]⟩
abbrev S1x16x1 : Shape := ⟨3, ![1, 16, 1]⟩
abbrev S256x4x4096 : Shape := ⟨3, ![256, 4, 4096]⟩
abbrev S4x256x4096 : Shape := ⟨3, ![4, 256, 4096]⟩
abbrev S1x256x1 : Shape := ⟨3, ![1, 256, 1]⟩
abbrev S1024x4x4096 : Shape := ⟨3, ![1024, 4, 4096]⟩
abbrev S4x1024x4096 : Shape := ⟨3, ![4, 1024, 4096]⟩
abbrev S_ : Shape := ⟨0, ![]⟩
abbrev S4x4x64x4096 : Shape := ⟨4, ![4, 4, 64, 4096]⟩
abbrev S16x1 : Shape := ⟨2, ![16, 1]⟩
abbrev S4x16x64x4096 : Shape := ⟨4, ![4, 16, 64, 4096]⟩
abbrev S4x3088x4096 : Shape := ⟨3, ![4, 3088, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S256x2048, .f32⟩
  | .hbm, ⟨4, _⟩ => ⟨S256, .f32⟩
  | .hbm, ⟨5, _⟩ => ⟨S256x2048, .f32⟩
  | .hbm, ⟨6, _⟩ => ⟨S256, .f32⟩
  | .hbm, ⟨7, _⟩ => ⟨S1024x2048, .f32⟩
  | .hbm, ⟨8, _⟩ => ⟨S16x4x4096, .f32⟩
  | .hbm, ⟨9, _⟩ => ⟨S4x16x4096, .f32⟩
  | .hbm, ⟨10, _⟩ => ⟨S1x16x1, .f32⟩
  | .hbm, ⟨11, _⟩ => ⟨S4x16x4096, .f32⟩
  | .hbm, ⟨12, _⟩ => ⟨S4x16x4096, .f32⟩
  | .hbm, ⟨13, _⟩ => ⟨S256x4x4096, .f32⟩
  | .hbm, ⟨14, _⟩ => ⟨S4x256x4096, .f32⟩
  | .hbm, ⟨15, _⟩ => ⟨S1x256x1, .f32⟩
  | .hbm, ⟨16, _⟩ => ⟨S4x256x4096, .f32⟩
  | .hbm, ⟨17, _⟩ => ⟨S4x256x4096, .f32⟩
  | .hbm, ⟨18, _⟩ => ⟨S256x4x4096, .f32⟩
  | .hbm, ⟨19, _⟩ => ⟨S4x256x4096, .f32⟩
  | .hbm, ⟨20, _⟩ => ⟨S1x256x1, .f32⟩
  | .hbm, ⟨21, _⟩ => ⟨S4x256x4096, .f32⟩
  | .hbm, ⟨22, _⟩ => ⟨S4x256x4096, .f32⟩
  | .hbm, ⟨23, _⟩ => ⟨S1024x4x4096, .f32⟩
  | .hbm, ⟨24, _⟩ => ⟨S4x1024x4096, .f32⟩
  | .hbm, ⟨25, _⟩ => ⟨S16, .i32⟩
  | .hbm, ⟨26, _⟩ => ⟨S_, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S4x4x64x4096, .f32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S16, .i32⟩
  | .hbm, ⟨52, _⟩ => ⟨S16x1, .i32⟩
  | .hbm, ⟨53, _⟩ => ⟨S4x16x64x4096, .f32⟩
  | .hbm, ⟨54, _⟩ => ⟨S4x1024x4096, .f32⟩
  | .hbm, ⟨55, _⟩ => ⟨S16, .i32⟩
  | .hbm, ⟨56, _⟩ => ⟨S_, .i32⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S16, .i32⟩
  | .hbm, ⟨65, _⟩ => ⟨S16, .i32⟩
  | .hbm, ⟨66, _⟩ => ⟨S_, .i32⟩
  | .hbm, ⟨67, _⟩ => ⟨S16, .i32⟩
  | .hbm, ⟨68, _⟩ => ⟨S16, .i1⟩
  | .hbm, ⟨69, _⟩ => ⟨S16, .i1⟩
  | .hbm, ⟨70, _⟩ => ⟨S_, .i32⟩
  | .hbm, ⟨71, _⟩ => ⟨S16, .i32⟩
  | .hbm, ⟨72, _⟩ => ⟨S16, .i32⟩
  | .hbm, ⟨73, _⟩ => ⟨S16, .i32⟩
  | .hbm, ⟨74, _⟩ => ⟨S4x4x64x4096, .f32⟩
  | .hbm, ⟨75, _⟩ => ⟨S_, .i32⟩
  | .hbm, ⟨76, _⟩ => ⟨S16, .i32⟩
  | .hbm, ⟨77, _⟩ => ⟨S16, .i1⟩
  | .hbm, ⟨78, _⟩ => ⟨S_, .i32⟩
  | .hbm, ⟨79, _⟩ => ⟨S16, .i32⟩
  | .hbm, ⟨80, _⟩ => ⟨S16, .i32⟩
  | .hbm, ⟨81, _⟩ => ⟨S16, .i32⟩
  | .hbm, ⟨82, _⟩ => ⟨S16x1, .i32⟩
  | .hbm, ⟨83, _⟩ => ⟨S4x16x64x4096, .f32⟩
  | .hbm, ⟨84, _⟩ => ⟨S4x1024x4096, .f32⟩
  | .hbm, ⟨85, _⟩ => ⟨S4x3088x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v18 : Ref sig .tc := ⟨.hbm, 43, rfl⟩
abbrev main_v19 : Ref sig .tc := ⟨.hbm, 44, rfl⟩
abbrev main_c_0 : Ref sig .tc := ⟨.hbm, 45, rfl⟩
abbrev main_v20 : Ref sig .tc := ⟨.hbm, 46, rfl⟩
abbrev main_v21 : Ref sig .tc := ⟨.hbm, 47, rfl⟩
abbrev main_c_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_2 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v29 : Ref sig .tc := ⟨.hbm, 73, rfl⟩
abbrev main_v30 : Ref sig .tc := ⟨.hbm, 74, rfl⟩
abbrev main_c_3 : Ref sig .tc := ⟨.hbm, 75, rfl⟩
abbrev main_v31 : Ref sig .tc := ⟨.hbm, 76, rfl⟩
abbrev main_v32 : Ref sig .tc := ⟨.hbm, 77, rfl⟩
abbrev main_c_4 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩

abbrev nD : Nat := 1
abbrev τ : Topo := Topo.v7x

variable {F : FTy → Type} [FloatOps F]

class Facts₀ : Prop where
  transposes_S16x4x4096_S4x16x4096_1_0_2 : S16x4x4096.Transposes [1, 0, 2] S4x16x4096
  bcast_S16_S1x16x1_1 : S16.BroadcastsInDim S1x16x1 (![1] : Fin 1 → Fin S1x16x1.rank)
  bcast_S1x16x1_S4x16x4096_0_1_2 : S1x16x1.BroadcastsInDim S4x16x4096 (![0, 1, 2] : Fin 3 → Fin S4x16x4096.rank)
  transposes_S256x4x4096_S4x256x4096_1_0_2 : S256x4x4096.Transposes [1, 0, 2] S4x256x4096
  bcast_S256_S1x256x1_1 : S256.BroadcastsInDim S1x256x1 (![1] : Fin 1 → Fin S1x256x1.rank)
  bcast_S1x256x1_S4x256x4096_0_1_2 : S1x256x1.BroadcastsInDim S4x256x4096 (![0, 1, 2] : Fin 3 → Fin S4x256x4096.rank)
  transposes_S1024x4x4096_S4x1024x4096_1_0_2 : S1024x4x4096.Transposes [1, 0, 2] S4x1024x4096
  bcast_S_S16 : S_.BroadcastsInDim S16 (![] : Fin 0 → Fin S16.rank)
  shapeCasts_S4x256x4096_S4x4x64x4096 : S4x256x4096.ShapeCasts S4x4x64x4096
  bcast_S16_S16x1_0 : S16.BroadcastsInDim S16x1 (![0] : Fin 1 → Fin S16x1.rank)
  shapeCasts_S4x16x64x4096_S4x1024x4096 : S4x16x64x4096.ShapeCasts S4x1024x4096
  concatenates_S4x1024x4096_S4x1024x4096_S4x1024x4096_S4x16x4096_S4x3088x4096_d1 : Shape.Concatenates [S4x1024x4096, S4x1024x4096, S4x1024x4096, S4x16x4096] S4x3088x4096 1
  dot_S16x2048_S4x4096x2048_S16x4x4096_1_2_0_01_n_n_wf : DotDims.WF S16x2048 S4x4096x2048 S16x4x4096 [1] [2] [0] [0, 1] [] []
  dot_S256x2048_S4x4096x2048_S256x4x4096_1_2_0_01_n_n_wf : DotDims.WF S256x2048 S4x4096x2048 S256x4x4096 [1] [2] [0] [0, 1] [] []
  dot_S1024x2048_S4x4096x2048_S1024x4x4096_1_2_0_01_n_n_wf : DotDims.WF S1024x2048 S4x4096x2048 S1024x4x4096 [1] [2] [0] [0, 1] [] []
  gather_S4x4x64x4096_S16x1_S4x16x64x4096_023_1_n_n_1_1_41644096_wf : GatherDims.WF S4x4x64x4096 S16x1 S4x16x64x4096 [0, 2, 3] [1] [] [1] [] 1 ![4, 1, 64, 4096]

variable [Facts₀]

def dot_S16x2048_S4x4096x2048_S16x4x4096_1_2_0_01_n_n : DotDims S16x2048 S4x4096x2048 S16x4x4096 where
  lhsContracting := [1]
  rhsContracting := [2]
  lhsNonContracting := [0]
  rhsNonContracting := [0, 1]
  lhsBatch := []
  rhsBatch := []
  wf := dot_S16x2048_S4x4096x2048_S16x4x4096_1_2_0_01_n_n_wf
def dot_S256x2048_S4x4096x2048_S256x4x4096_1_2_0_01_n_n : DotDims S256x2048 S4x4096x2048 S256x4x4096 where
  lhsContracting := [1]
  rhsContracting := [2]
  lhsNonContracting := [0]
  rhsNonContracting := [0, 1]
  lhsBatch := []
  rhsBatch := []
  wf := dot_S256x2048_S4x4096x2048_S256x4x4096_1_2_0_01_n_n_wf
def dot_S1024x2048_S4x4096x2048_S1024x4x4096_1_2_0_01_n_n : DotDims S1024x2048 S4x4096x2048 S1024x4x4096 where
  lhsContracting := [1]
  rhsContracting := [2]
  lhsNonContracting := [0]
  rhsNonContracting := [0, 1]
  lhsBatch := []
  rhsBatch := []
  wf := dot_S1024x2048_S4x4096x2048_S1024x4x4096_1_2_0_01_n_n_wf
def gather_S4x4x64x4096_S16x1_S4x16x64x4096_023_1_n_n_1_1_41644096 : GatherDims S4x4x64x4096 S16x1 S4x16x64x4096 where
  offsetDims := [0, 2, 3]
  collapsedSliceDims := [1]
  operandBatchingDims := []
  startIndicesBatchingDims := []
  startIndexMap := [1]
  indexVectorDim := 1
  sliceSizes := ![4, 1, 64, 4096]
  wf := gather_S4x4x64x4096_S16x1_S4x16x64x4096_023_1_n_n_1_1_41644096_wf

class Facts : Prop extends Facts₀ where

variable [Facts]
-- ==== Proof.Spec.lean ====
/-
  What both programs compute, as one function of the argument arrays.

  x is a batch of 4 sequences of 4096 tokens of width 2048. Four linear maps read every token: A (16 rows, with bias),
  Bk and Ck (256 rows each, with bias), V (1024 rows, no bias). Entry (b, r, l) of a projection is
  ∑ q < 2048, W (r, q) · x (b, l, q)  (plus the bias of row r): channel-major, the token axis last.
  The 256 rows of Bk and Ck are 4 key/value heads of 64 rows; each head is repeated for the 4 query heads of its
  group, so channel ch < 1024 of an expanded gate reads head (ch / 64) / 4 = ch / 256 at row ch % 64 inside the head:
  row (ch / 256) · 64 + ch % 64.  The result packs, along the channel axis, the expanded Bk (1024 channels), V (1024),
  the expanded Ck (1024) and A (16): 3088 channels.

  The same function one block at a time: a block is one sample and 256 consecutive tokens; its entries are the same
  sums over the block's 256 × 2048 slab of x.
-/
import Idealize.ShloMosaic.PureOps.Ideal
import Idealize.ShloMosaic.Lib.ValueIdx

noncomputable section

open scoped BigOperators

namespace Cert.Spec

open Idealize.ShloMosaic Idealize.ShloMosaic.ValueIdx

/-- Entry (b, r, l) of a projection without bias: token (b, l) against weight row r. -/
def proj {C : Nat} (W : FVec Ideal ⟨2, ![C, 2048]⟩ .f32) (x : FVec Ideal ⟨3, ![4, 4096, 2048]⟩ .f32)
    (b : Fin 4) (r : Fin C) (l : Fin 4096) : EReal :=
  ∑ q : Fin 2048, W (ix2 r q) * x (ix3 b l q)

/-- Entry (b, r, l) of a projection with the bias of row r added. -/
def projB {C : Nat} (W : FVec Ideal ⟨2, ![C, 2048]⟩ .f32) (β : FVec Ideal ⟨1, ![C]⟩ .f32)
    (x : FVec Ideal ⟨3, ![4, 4096, 2048]⟩ .f32) (b : Fin 4) (r : Fin C) (l : Fin 4096) : EReal :=
  proj W x b r l + β (ix1 r)

/-- The key/value row that channel ch of an expanded gate reads. -/
def kvRow (ch : Nat) (h : ch < 1024) : Fin 256 := ⟨ch / 256 * 64 + ch % 64, by omega⟩

/-- The packed result [4, 3088, 4096], entry by entry. -/
def G (x : FVec Ideal ⟨3, ![4, 4096, 2048]⟩ .f32)
    (Wa : FVec Ideal ⟨2, ![16, 2048]⟩ .f32) (ba : FVec Ideal ⟨1, ![16]⟩ .f32)
    (Wb : FVec Ideal ⟨2, ![256, 2048]⟩ .f32) (bb : FVec Ideal ⟨1, ![256]⟩ .f32)
    (Wc : FVec Ideal ⟨2, ![256, 2048]⟩ .f32) (bc : FVec Ideal ⟨1, ![256]⟩ .f32)
    (Wv : FVec Ideal ⟨2, ![1024, 2048]⟩ .f32) : FVec Ideal ⟨3, ![4, 3088, 4096]⟩ .f32 := fun j =>
  if h1 : (j 1).val < 1024 then projB Wb bb x (j 0) (kvRow (j 1).val h1) (j 2)
  else if h2 : (j 1).val < 2048 then proj Wv x (j 0) ⟨(j 1).val - 1024, by omega⟩ (j 2)
  else if h3 : (j 1).val < 3072 then projB Wc bc x (j 0) (kvRow ((j 1).val - 2048) (by omega)) (j 2)
  else projB Wa ba x (j 0) ⟨(j 1).val - 3072, by have : (j 1).val < 3088 := (j 1).isLt; omega⟩ (j 2)

/-- Entry (r, l) of a block's projection without bias: token l of the block's slab against weight row r (the weights in
    any float format: at the ideal values a format is not seen). -/
def bproj {C : Nat} {φ : FTy} (W : FVec Ideal ⟨2, ![C, 2048]⟩ φ) (xb : FVec Ideal ⟨3, ![1, 256, 2048]⟩ .f32)
    (r : Fin C) (l : Fin 256) : EReal :=
  ∑ q : Fin 2048, W (ix2 r q) * xb (ix3 0 l q)

/-- The same with the bias of row r, held as a column [C, 1]. -/
def bprojB {C : Nat} {φ : FTy} (W : FVec Ideal ⟨2, ![C, 2048]⟩ φ) (β : FVec Ideal ⟨2, ![C, 1]⟩ .f32)
    (xb : FVec Ideal ⟨3, ![1, 256, 2048]⟩ .f32) (r : Fin C) (l : Fin 256) : EReal :=
  bproj W xb r l + β (ix2 r 0)

/-- One block [1, 3088, 256] of the packed result from the block's slab of x and the whole weights. -/
def blockG (xb : FVec Ideal ⟨3, ![1, 256, 2048]⟩ .f32)
    (wa : FVec Ideal ⟨2, ![16, 2048]⟩ .bf16) (ba : FVec Ideal ⟨2, ![16, 1]⟩ .f32)
    (wb : FVec Ideal ⟨2, ![256, 2048]⟩ .bf16) (bb : FVec Ideal ⟨2, ![256, 1]⟩ .f32)
    (wc : FVec Ideal ⟨2, ![256, 2048]⟩ .bf16) (bc : FVec Ideal ⟨2, ![256, 1]⟩ .f32)
    (wv : FVec Ideal ⟨2, ![1024, 2048]⟩ .bf16) : FVec Ideal ⟨3, ![1, 3088, 256]⟩ .f32 := fun y =>
  if h1 : (y 1).val < 1024 then bprojB wb bb xb (kvRow (y 1).val h1) (y 2)
  else if h2 : (y 1).val < 2048 then bproj wv xb ⟨(y 1).val - 1024, by omega⟩ (y 2)
  else if h3 : (y 1).val < 3072 then bprojB wc bc xb (kvRow ((y 1).val - 2048) (by omega)) (y 2)
  else bprojB wa ba xb ⟨(y 1).val - 3072, by have : (y 1).val < 3088 := (y 1).isLt; omega⟩ (y 2)

end Cert.Spec

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.KBlock.lean ====
/-
  What the kernel body leaves in the output block, entry by entry: the block of the packed result computed from the
  block's slab of x and the whole weights.

  The body's value is a shape cast of four pieces laid end to end along the channel axis: the expanded Bk gate, V, the
  expanded Ck gate and A. Each piece is a product of a weight array with the slab (plus, for three of them, a bias column
  broadcast along the tokens), and an expanded gate is sixteen 64-row pieces of its 256-row product, piece k being the
  64-row slice number k / 4: channel ch reads row (ch / 64 / 4) * 64 + ch % 64 = (ch / 256) * 64 + ch % 64.
-/
import proofs.«107365_j81681688035849_1_alg».proof.Proof.Gen.KernelIdeal.Frame
import proofs.«107365_j81681688035849_1_alg».proof.Proof.Spec
import proofs.«107365_j81681688035849_1_alg».proof.Proof.LibDotRows
import Idealize.ShloMosaic.Lib.Pipeline.Value
import Idealize.ShloMosaic.Lib.ValueLayout

noncomputable section

open scoped BigOperators

namespace Cert.KernelIdeal.KBlock

open Cert.KernelIdeal Cert.KernelIdeal.Gen Idealize.ShloMosaic Idealize.ShloMosaic.ValueIdx Cert.Lib.DotRows

/-! ## The rectangles' offsets are zero -/

theorem hz2 : (![0, 0] : Fin 2 → Nat) = fun _ => 0 := funext fun a => by fin_cases a <;> rfl

theorem hz3 : (![0, 0, 0] : Fin 3 → Nat) = fun _ => 0 := funext fun a => by fin_cases a <;> rfl

/-! ## The slab of x as a matrix -/

/-- The slab viewed as a [256, 2048] matrix reads, at (l, q), the slab at (0, l, q): a format change is not seen at the
    ideal values. -/
theorem slab_apply (x0 : Vec Ideal S1x256x2048 .f32) (l : Fin 256) (q : Fin 2048) :
    k0_pay2 (F := Ideal) x0 (ix2 l q) = x0 (ix3 0 l q) := by
  unfold k0_pay2
  exact shapeCast_1ab_ab_apply x0 _ l q

/-! ## A product of weight rows with the slab -/

/-- A rows-by-rows product of a weight array [C, 2048] with the slab, into the zero accumulator, at (r, l): the sum over
    the shared axis of weight row r against token l. -/
theorem prod_apply {C : Nat} {d : DotDims ⟨2, ![C, 2048]⟩ ⟨2, ![256, 2048]⟩ ⟨2, ![C, 256]⟩} (hd : RowsRows d)
    (W : FVec Ideal ⟨2, ![C, 2048]⟩ .bf16) (h : (⟨2, ![C, 2048]⟩ : Shape).ShapeCasts ⟨2, ![C, 2048]⟩)
    (x0 : Vec Ideal S1x256x2048 .f32) (r : Fin C) (l : Fin 256) :
    matmul (F := Ideal) d none (shapeCast ⟨2, ![C, 2048]⟩ W h) (k0_pay2 (F := Ideal) x0)
        (constant (F := Ideal) ⟨2, ![C, 256]⟩ .f32 0x00000000#32) (ix2 r l)
      = Cert.Spec.bproj W x0 r l := by
  refine (hd.matmul_zero_apply none _ _ _).trans ?_
  unfold Cert.Spec.bproj
  rw [shapeCast_self]
  exact Finset.sum_congr rfl fun q _ => congrArg (W (ix2 r q) * ·) (slab_apply x0 l q)

/-- A bias column [C, 1] broadcast along the tokens reads, at (r, l), the column at (r, 0). -/
theorem biasCol_apply {C : Nat} (β : FVec Ideal ⟨2, ![C, 1]⟩ .f32)
    (h1 : (⟨2, ![C, 1]⟩ : Shape).ShapeCasts ⟨2, ![C, 1]⟩) (h2 : (⟨2, ![C, 1]⟩ : Shape).Broadcasts ⟨2, ![C, 256]⟩)
    (r : Fin C) (l : Fin 256) :
    broadcastTo ⟨2, ![C, 256]⟩ (shapeCast ⟨2, ![C, 1]⟩ β h1) h2 (ix2 r l) = β (ix2 r 0) := by
  rw [shapeCast_self]
  refine broadcastTo_apply β h2 _ _ fun a => ?_
  match a with
  | ⟨0, _⟩ =>
    show r.val = if C = 1 then 0 else r.val
    split_ifs with hC
    · have := r.isLt; omega
    · rfl
  | ⟨1, _⟩ => rfl

/-- The product with its bias, at (r, l). -/
theorem prodB_apply {C : Nat} {d : DotDims ⟨2, ![C, 2048]⟩ ⟨2, ![256, 2048]⟩ ⟨2, ![C, 256]⟩} (hd : RowsRows d)
    (W : FVec Ideal ⟨2, ![C, 2048]⟩ .bf16) (h : (⟨2, ![C, 2048]⟩ : Shape).ShapeCasts ⟨2, ![C, 2048]⟩)
    (β : FVec Ideal ⟨2, ![C, 1]⟩ .f32)
    (h1 : (⟨2, ![C, 1]⟩ : Shape).ShapeCasts ⟨2, ![C, 1]⟩) (h2 : (⟨2, ![C, 1]⟩ : Shape).Broadcasts ⟨2, ![C, 256]⟩)
    (x0 : Vec Ideal S1x256x2048 .f32) (r : Fin C) (l : Fin 256) :
    addf (F := Ideal) (matmul (F := Ideal) d none (shapeCast ⟨2, ![C, 2048]⟩ W h) (k0_pay2 (F := Ideal) x0)
        (constant (F := Ideal) ⟨2, ![C, 256]⟩ .f32 0x00000000#32))
        (broadcastTo ⟨2, ![C, 256]⟩ (shapeCast ⟨2, ![C, 1]⟩ β h1) h2) (ix2 r l)
      = Cert.Spec.bprojB W β x0 r l := by
  rw [addf_apply, prod_apply hd, biasCol_apply]
  rfl

/-! ## The expansion of a 256-row gate to 1024 channels -/

/-- The 64-row slice that piece n of the sixteen holds: slice number n / 4. -/
theorem slices_piece (n : Fin 16) : S256x256.Slices ![64 * (n.val / 4), 0] S64x256 :=
  ⟨rfl, fun a => match a with
    | ⟨0, _⟩ => by show 64 * (n.val / 4) + 64 ≤ 256; have := n.isLt; omega
    | ⟨1, _⟩ => by show 0 + 256 ≤ 256; omega⟩

/-- Piece n of the expansion of v. -/
def piece (v : FVec Ideal S256x256 .f32) (n : Fin 16) : FVec Ideal S64x256 .f32 :=
  extractStridedSlice S64x256 ![64 * (n.val / 4), 0] v (slices_piece n)

/-- The expansion: the four 64-row slices of v, each laid four times, end to end along the rows. -/
def expand (v : FVec Ideal S256x256 .f32) : FVec Ideal S1024x256 .f32 :=
  concatenate S1024x256 0 [⟨S64x256, extractStridedSlice S64x256 ![0, 0] v slices_S256x256_o0_0_S64x256⟩, ⟨S64x256, extractStridedSlice S64x256 ![0, 0] v slices_S256x256_o0_0_S64x256⟩, ⟨S64x256, extractStridedSlice S64x256 ![0, 0] v slices_S256x256_o0_0_S64x256⟩, ⟨S64x256, extractStridedSlice S64x256 ![0, 0] v slices_S256x256_o0_0_S64x256⟩, ⟨S64x256, extractStridedSlice S64x256 ![64, 0] v slices_S256x256_o64_0_S64x256⟩, ⟨S64x256, extractStridedSlice S64x256 ![64, 0] v slices_S256x256_o64_0_S64x256⟩, ⟨S64x256, extractStridedSlice S64x256 ![64, 0] v slices_S256x256_o64_0_S64x256⟩, ⟨S64x256, extractStridedSlice S64x256 ![64, 0] v slices_S256x256_o64_0_S64x256⟩, ⟨S64x256, extractStridedSlice S64x256 ![128, 0] v slices_S256x256_o128_0_S64x256⟩, ⟨S64x256, extractStridedSlice S64x256 ![128, 0] v slices_S256x256_o128_0_S64x256⟩, ⟨S64x256, extractStridedSlice S64x256 ![128, 0] v slices_S256x256_o128_0_S64x256⟩, ⟨S64x256, extractStridedSlice S64x256 ![128, 0] v slices_S256x256_o128_0_S64x256⟩, ⟨S64x256, extractStridedSlice S64x256 ![192, 0] v slices_S256x256_o192_0_S64x256⟩, ⟨S64x256, extractStridedSlice S64x256 ![192, 0] v slices_S256x256_o192_0_S64x256⟩, ⟨S64x256, extractStridedSlice S64x256 ![192, 0] v slices_S256x256_o192_0_S64x256⟩, ⟨S64x256, extractStridedSlice S64x256 ![192, 0] v slices_S256x256_o192_0_S64x256⟩]
    concatenates_S64x256_S64x256_S64x256_S64x256_S64x256_S64x256_S64x256_S64x256_S64x256_S64x256_S64x256_S64x256_S64x256_S64x256_S64x256_S64x256_S1024x256_d0

/-- The sixteen pieces are piece 0, …, piece 15. -/
theorem expand_eq_ofFn (v : FVec Ideal S256x256 .f32) :
    expand v = concatenate S1024x256 0 (List.ofFn fun n : Fin 16 => (⟨S64x256, piece v n⟩ : (s : Shape) × (s.Idx → EReal)))
      concatenates_S64x256_S64x256_S64x256_S64x256_S64x256_S64x256_S64x256_S64x256_S64x256_S64x256_S64x256_S64x256_S64x256_S64x256_S64x256_S64x256_S1024x256_d0 := rfl

/-- Channel ch of the expansion reads row (ch / 256) * 64 + ch % 64 of v. -/
theorem expand_apply (v : FVec Ideal S256x256 .f32) (ch : Fin 1024) (li : Fin 256) :
    expand v (ix2 ch li) = v (ix2 (Cert.Spec.kvRow ch.val ch.isLt) li) := by
  have hch := ch.isLt
  rw [expand_eq_ofFn]
  refine (concatenate_ofFn_apply (t := S1024x256) (s₁ := S64x256) 0 (piece v) _ rfl 64 rfl (ix2 ch li)
    ⟨ch.val / 64, by omega⟩ rfl (ix2 ⟨ch.val % 64, by omega⟩ li) rfl ?_).trans ?_
  · intro b hb
    match b with
    | ⟨0, _⟩ => exact absurd rfl hb
    | ⟨1, _⟩ => rfl
  · unfold piece
    exact slice2_axis0_apply _ v _ _ li _ (by
      show ch.val / 256 * 64 + ch.val % 64 = 64 * (ch.val / 64 / 4) + ch.val % 64
      omega)

/-! ## The four payloads at an entry -/

theorem rowsRows16 : RowsRows dot_S16x2048_S256x2048_S16x256_1_1_0_0_n_n := ⟨rfl, rfl, rfl, rfl, rfl, rfl⟩

theorem rowsRows256 : RowsRows dot_S256x2048_S256x2048_S256x256_1_1_0_0_n_n := ⟨rfl, rfl, rfl, rfl, rfl, rfl⟩

theorem rowsRows1024 : RowsRows dot_S1024x2048_S256x2048_S1024x256_1_1_0_0_n_n := ⟨rfl, rfl, rfl, rfl, rfl, rfl⟩

/-- The A projection with its bias. -/
theorem pay3_apply (x0 : FVec Ideal S1x256x2048 .f32) (wa : FVec Ideal S16x2048 .bf16) (ba : FVec Ideal S16x1 .f32)
    (p : Fin 16) (li : Fin 256) :
    k0_pay3 (F := Ideal) x0 wa ba (ix2 p li) = Cert.Spec.bprojB wa ba x0 p li := by
  unfold k0_pay3
  exact prodB_apply rowsRows16 wa _ ba _ _ x0 p li

/-- The V projection. -/
theorem pay4_apply (x0 : FVec Ideal S1x256x2048 .f32) (wv : FVec Ideal S1024x2048 .bf16) (r : Fin 1024) (li : Fin 256) :
    k0_pay4 (F := Ideal) x0 wv (ix2 r li) = Cert.Spec.bproj wv x0 r li := by
  unfold k0_pay4
  exact prod_apply rowsRows1024 wv _ x0 r li

/-- A 256-row gate's product with its bias. -/
def gate (x0 : FVec Ideal S1x256x2048 .f32) (w : FVec Ideal S256x2048 .bf16) (β : FVec Ideal S256x1 .f32) :
    FVec Ideal S256x256 .f32 :=
  addf (F := Ideal) (matmul (F := Ideal) dot_S256x2048_S256x2048_S256x256_1_1_0_0_n_n none
      (shapeCast S256x2048 w shapeCasts_S256x2048_S256x2048) (k0_pay2 (F := Ideal) x0)
      (constant (F := Ideal) S256x256 .f32 0x00000000#32))
    (broadcastTo S256x256 (shapeCast S256x1 β shapeCasts_S256x1_S256x1) broadcasts_S256x1_S256x256)

theorem gate_apply (x0 : FVec Ideal S1x256x2048 .f32) (w : FVec Ideal S256x2048 .bf16) (β : FVec Ideal S256x1 .f32)
    (r : Fin 256) (li : Fin 256) : gate x0 w β (ix2 r li) = Cert.Spec.bprojB w β x0 r li := by
  unfold gate
  exact prodB_apply rowsRows256 w _ β _ _ x0 r li

/-- The expanded Bk gate is the expansion of its product with bias. -/
theorem pay5_eq (x0 : FVec Ideal S1x256x2048 .f32) (w : FVec Ideal S256x2048 .bf16) (β : FVec Ideal S256x1 .f32) :
    k0_pay5 (F := Ideal) x0 w β = expand (gate x0 w β) := rfl

/-- The expanded Ck gate is the expansion of its product with bias. -/
theorem pay6_eq (x0 : FVec Ideal S1x256x2048 .f32) (w : FVec Ideal S256x2048 .bf16) (β : FVec Ideal S256x1 .f32) :
    k0_pay6 (F := Ideal) x0 w β = expand (gate x0 w β) := rfl

/-- An expanded gate at channel ch. -/
theorem expandGate_apply (x0 : FVec Ideal S1x256x2048 .f32) (w : FVec Ideal S256x2048 .bf16) (β : FVec Ideal S256x1 .f32)
    (ch : Fin 1024) (li : Fin 256) :
    expand (gate x0 w β) (ix2 ch li) = Cert.Spec.bprojB w β x0 (Cert.Spec.kvRow ch.val ch.isLt) li :=
  (expand_apply _ ch li).trans (gate_apply x0 w β _ li)

/-! ## The packed block -/

/-- The four pieces laid end to end along the channels and given a leading unit axis, at (u, ch, li): the piece whose
    span holds ch, at ch less the extents before it. -/
theorem pack_apply (v15 : FVec Ideal S16x256 .f32) (v26 v31 v36 : FVec Ideal S1024x256 .f32)
    (u : Fin 1) (ch : Fin 3088) (li : Fin 256) :
    k0_pay1 (F := Ideal) v15 v26 v31 v36 (ix3 u ch li) =
      if h1 : ch.val < 1024 then v31 (ix2 ⟨ch.val, h1⟩ li)
      else if h2 : ch.val < 2048 then v26 (ix2 ⟨ch.val - 1024, by omega⟩ li)
      else if h3 : ch.val < 3072 then v36 (ix2 ⟨ch.val - 2048, by omega⟩ li)
      else v15 (ix2 ⟨ch.val - 3072, by have := ch.isLt; omega⟩ li) := by
  have hch := ch.isLt
  unfold k0_pay1
  refine (shapeCast_ab_1ab_apply _ _ u ch li).trans ?_
  have hi : ∀ {n : Nat} (c : Fin n) (b : Fin 2), b.cast (rfl : (2 : Nat) = 2) ≠ (0 : Fin 2) →
      ((ix2 c li) b).val = ((ix2 ch li) (b.cast (rfl : (2 : Nat) = 2))).val := fun c b hb =>
    match b with
    | ⟨0, _⟩ => absurd rfl hb
    | ⟨1, _⟩ => rfl
  by_cases h1 : ch.val < 1024
  · rw [dif_pos h1]
    exact concatenate_apply_piece (t := S3088x256) 0 _ _ (ix2 ch li) 0 (by show 0 < 4; omega) S1024x256 v31 rfl rfl 0 rfl
      (ix2 ⟨ch.val, h1⟩ li) (hi _) (Nat.zero_add _)
  · rw [dif_neg h1]
    by_cases h2 : ch.val < 2048
    · rw [dif_pos h2]
      exact concatenate_apply_piece (t := S3088x256) 0 _ _ (ix2 ch li) 1 (by show 1 < 4; omega) S1024x256 v26 rfl rfl 1024 rfl
        (ix2 ⟨ch.val - 1024, by omega⟩ li) (hi _) (by show 1024 + (ch.val - 1024) = ch.val; omega)
    · rw [dif_neg h2]
      by_cases h3 : ch.val < 3072
      · rw [dif_pos h3]
        exact concatenate_apply_piece (t := S3088x256) 0 _ _ (ix2 ch li) 2 (by show 2 < 4; omega) S1024x256 v36 rfl rfl 2048 rfl
          (ix2 ⟨ch.val - 2048, by omega⟩ li) (hi _) (by show 2048 + (ch.val - 2048) = ch.val; omega)
      · rw [dif_neg h3]
        exact concatenate_apply_piece (t := S3088x256) 0 _ _ (ix2 ch li) 3 (by show 3 < 4; omega) S16x256 v15 rfl rfl 3072 rfl
          (ix2 ⟨ch.val - 3072, by omega⟩ li) (hi _) (by show 3072 + (ch.val - 3072) = ch.val; omega)

/-- The block of the packed result at (u, ch, li), by the range of ch. -/
theorem blockG_apply (xb : FVec Ideal ⟨3, ![1, 256, 2048]⟩ .f32)
    (wa : FVec Ideal ⟨2, ![16, 2048]⟩ .bf16) (ba : FVec Ideal ⟨2, ![16, 1]⟩ .f32)
    (wb : FVec Ideal ⟨2, ![256, 2048]⟩ .bf16) (bb : FVec Ideal ⟨2, ![256, 1]⟩ .f32)
    (wc : FVec Ideal ⟨2, ![256, 2048]⟩ .bf16) (bc : FVec Ideal ⟨2, ![256, 1]⟩ .f32)
    (wv : FVec Ideal ⟨2, ![1024, 2048]⟩ .bf16) (u : Fin 1) (ch : Fin 3088) (li : Fin 256) :
    Cert.Spec.blockG xb wa ba wb bb wc bc wv (ix3 u ch li) =
      if h1 : ch.val < 1024 then Cert.Spec.bprojB wb bb xb (Cert.Spec.kvRow ch.val h1) li
      else if h2 : ch.val < 2048 then Cert.Spec.bproj wv xb ⟨ch.val - 1024, by omega⟩ li
      else if h3 : ch.val < 3072 then Cert.Spec.bprojB wc bc xb (Cert.Spec.kvRow (ch.val - 2048) (by omega)) li
      else Cert.Spec.bprojB wa ba xb ⟨ch.val - 3072, by have := ch.isLt; omega⟩ li := rfl

theorem out0_8_eq (x0 : Vec Ideal S1x256x2048 .f32) (x1 : Vec Ideal S16x2048 .bf16) (x2 : Vec Ideal S16x1 .f32)
    (x3 : Vec Ideal S256x2048 .bf16) (x4 : Vec Ideal S256x1 .f32) (x5 : Vec Ideal S256x2048 .bf16) (x6 : Vec Ideal S256x1 .f32)
    (x7 : Vec Ideal S1024x2048 .bf16) :
    out0_8 (F := Ideal) x0 x1 x2 x3 x4 x5 x6 x7 = Cert.Spec.blockG x0 x1 x2 x3 x4 x5 x6 x7 := by
  funext y
  obtain ⟨u, ch, li, rfl⟩ : ∃ (u : Fin 1) (ch : Fin 3088) (li : Fin 256), y = ix3 u ch li := ⟨y 0, y 1, y 2, eq_ix3 y⟩
  have hch := ch.isLt
  unfold out0_8
  rw [View.canon_unit_zero hz3]
  simp only [View.ld_unit_zero (S := S1x256x2048) hz3, View.ld_unit_zero (S := S16x2048) hz2,
    View.ld_unit_zero (S := S256x2048) hz2, View.ld_unit_zero (S := S1024x2048) hz2,
    View.ld_unit_zero (S := S16x1) hz2, View.ld_unit_zero (S := S256x1) hz2]
  rw [pack_apply, blockG_apply, pay5_eq, pay6_eq]
  by_cases h1 : ch.val < 1024
  · rw [dif_pos h1, dif_pos h1]
    exact expandGate_apply x0 x3 x4 ⟨ch.val, h1⟩ li
  · rw [dif_neg h1, dif_neg h1]
    by_cases h2 : ch.val < 2048
    · rw [dif_pos h2, dif_pos h2]
      exact pay4_apply x0 x7 _ li
    · rw [dif_neg h2, dif_neg h2]
      by_cases h3 : ch.val < 3072
      · rw [dif_pos h3, dif_pos h3]
        exact expandGate_apply x0 x5 x6 ⟨ch.val - 2048, by omega⟩ li
      · rw [dif_neg h3, dif_neg h3]
        exact pay3_apply x0 x1 x2 _ li

end Cert.KernelIdeal.KBlock

end
-- ==== Proof.SpecBlock.lean ====
/-
  A block of the packed result is the packed result at the block's place.

  If a slab holds token (b, L) of x at its token l, and the block's weights and bias columns are the whole arrays' rows,
  then entry (0, ch, l) of the block is entry (b, ch, L) of the whole: the same four cases on the channel, and in each the
  same sum over the width, term by term.
-/
import proofs.«107365_j81681688035849_1_alg».proof.Proof.Spec

noncomputable section

open scoped BigOperators

namespace Cert.Spec

open Idealize.ShloMosaic Idealize.ShloMosaic.ValueIdx

theorem kvRow_congr {a b : Nat} (h : a = b) (ha : a < 1024) (hb : b < 1024) : kvRow a ha = kvRow b hb := by
  subst h; rfl

theorem bproj_eq_proj {C : Nat} {φ : FTy} (w : FVec Ideal ⟨2, ![C, 2048]⟩ φ) (W : FVec Ideal ⟨2, ![C, 2048]⟩ .f32)
    (hw : ∀ r q, w (ix2 r q) = W (ix2 r q))
    (xb : FVec Ideal ⟨3, ![1, 256, 2048]⟩ .f32) (x : FVec Ideal ⟨3, ![4, 4096, 2048]⟩ .f32) (b : Fin 4) (l : Fin 256) (L : Fin 4096)
    (hx : ∀ q : Fin 2048, xb (ix3 0 l q) = x (ix3 b L q)) (r : Fin C) :
    bproj w xb r l = proj W x b r L := by
  unfold bproj proj
  exact Finset.sum_congr rfl fun q _ => by rw [hw, hx]

theorem bprojB_eq_projB {C : Nat} {φ : FTy} (w : FVec Ideal ⟨2, ![C, 2048]⟩ φ) (W : FVec Ideal ⟨2, ![C, 2048]⟩ .f32)
    (hw : ∀ r q, w (ix2 r q) = W (ix2 r q))
    (β : FVec Ideal ⟨2, ![C, 1]⟩ .f32) (B : FVec Ideal ⟨1, ![C]⟩ .f32) (hβ : ∀ r, β (ix2 r 0) = B (ix1 r))
    (xb : FVec Ideal ⟨3, ![1, 256, 2048]⟩ .f32) (x : FVec Ideal ⟨3, ![4, 4096, 2048]⟩ .f32) (b : Fin 4) (l : Fin 256) (L : Fin 4096)
    (hx : ∀ q : Fin 2048, xb (ix3 0 l q) = x (ix3 b L q)) (r : Fin C) :
    bprojB w β xb r l = projB W B x b r L := by
  unfold bprojB projB
  rw [bproj_eq_proj w W hw xb x b l L hx r, hβ]

theorem blockG_eq_G (xb : FVec Ideal ⟨3, ![1, 256, 2048]⟩ .f32)
    (wa : FVec Ideal ⟨2, ![16, 2048]⟩ .bf16) (ba : FVec Ideal ⟨2, ![16, 1]⟩ .f32)
    (wb : FVec Ideal ⟨2, ![256, 2048]⟩ .bf16) (bb : FVec Ideal ⟨2, ![256, 1]⟩ .f32)
    (wc : FVec Ideal ⟨2, ![256, 2048]⟩ .bf16) (bc : FVec Ideal ⟨2, ![256, 1]⟩ .f32)
    (wv : FVec Ideal ⟨2, ![1024, 2048]⟩ .bf16)
    (x : FVec Ideal ⟨3, ![4, 4096, 2048]⟩ .f32)
    (Wa : FVec Ideal ⟨2, ![16, 2048]⟩ .f32) (Ba : FVec Ideal ⟨1, ![16]⟩ .f32)
    (Wb : FVec Ideal ⟨2, ![256, 2048]⟩ .f32) (Bb : FVec Ideal ⟨1, ![256]⟩ .f32)
    (Wc : FVec Ideal ⟨2, ![256, 2048]⟩ .f32) (Bc : FVec Ideal ⟨1, ![256]⟩ .f32)
    (Wv : FVec Ideal ⟨2, ![1024, 2048]⟩ .f32)
    (hwa : ∀ r q, wa (ix2 r q) = Wa (ix2 r q)) (hba : ∀ r, ba (ix2 r 0) = Ba (ix1 r))
    (hwb : ∀ r q, wb (ix2 r q) = Wb (ix2 r q)) (hbb : ∀ r, bb (ix2 r 0) = Bb (ix1 r))
    (hwc : ∀ r q, wc (ix2 r q) = Wc (ix2 r q)) (hbc : ∀ r, bc (ix2 r 0) = Bc (ix1 r))
    (hwv : ∀ r q, wv (ix2 r q) = Wv (ix2 r q))
    (y : (⟨3, ![1, 3088, 256]⟩ : Shape).Idx) (j : (⟨3, ![4, 3088, 4096]⟩ : Shape).Idx)
    (h1 : (j 1).val = (y 1).val)
    (hx : ∀ q : Fin 2048, xb (ix3 0 (y 2) q) = x (ix3 (j 0) (j 2) q)) :
    blockG xb wa ba wb bb wc bc wv y = G x Wa Ba Wb Bb Wc Bc Wv j := by
  unfold blockG G
  by_cases c1 : (y 1).val < 1024
  · rw [dif_pos c1, dif_pos (show (j 1).val < 1024 by omega)]
    rw [kvRow_congr h1 (by omega) c1]
    exact bprojB_eq_projB wb Wb hwb bb Bb hbb xb x (j 0) (y 2) (j 2) hx _
  · rw [dif_neg c1, dif_neg (show ¬(j 1).val < 1024 by omega)]
    by_cases c2 : (y 1).val < 2048
    · rw [dif_pos c2, dif_pos (show (j 1).val < 2048 by omega)]
      have e : (⟨(j 1).val - 1024, by omega⟩ : Fin 1024) = ⟨(y 1).val - 1024, by omega⟩ := Fin.ext (by show (j 1).val - 1024 = (y 1).val - 1024; omega)
      rw [e]
      exact bproj_eq_proj wv Wv hwv xb x (j 0) (y 2) (j 2) hx _
    · rw [dif_neg c2, dif_neg (show ¬(j 1).val < 2048 by omega)]
      by_cases c3 : (y 1).val < 3072
      · rw [dif_pos c3, dif_pos (show (j 1).val < 3072 by omega)]
        rw [kvRow_congr (show (j 1).val - 2048 = (y 1).val - 2048 by omega) (by omega) (by omega)]
        exact bprojB_eq_projB wc Wc hwc bc Bc hbc xb x (j 0) (y 2) (j 2) hx _
      · rw [dif_neg c3, dif_neg (show ¬(j 1).val < 3072 by omega)]
        have hy : (y 1).val < 3088 := (y 1).isLt
        have e : (⟨(j 1).val - 3072, by have : (j 1).val < 3088 := (j 1).isLt; omega⟩ : Fin 16) = ⟨(y 1).val - 3072, by omega⟩ := Fin.ext (by show (j 1).val - 3072 = (y 1).val - 3072; omega)
        rw [e]
        exact bprojB_eq_projB wa Wa hwa ba Ba hba xb x (j 0) (y 2) (j 2) hx _

end Cert.Spec

end
-- ==== Proof.KValue.lean ====
/-
  The kernel's result array, whole.

  The grid has one point per (sample b, token tile lt): 4 × 16 points. Point (b, lt) reads the slab x (b, 256·lt … 256·lt + 255, ·)
  and every weight array whole, and writes back the block [b, all 3088 channels, 256·lt … 256·lt + 255] of the result. The
  weights reach the region narrowed to a 16-bit format, the identity on ideal values, and the biases as columns [C, 1].
  Entry (0, ch, li) of the block the body leaves is the packed result at (b, ch, 256·lt + li): the block's sum over the slab is
  the whole array's sum at that token. The 64 blocks are disjoint and fill the result.
-/
import proofs.«107365_j81681688035849_1_alg».proof.Proof.Gen.KernelIdeal.Value
import proofs.«107365_j81681688035849_1_alg».proof.Proof.KBlock
import proofs.«107365_j81681688035849_1_alg».proof.Proof.SpecBlock
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value

variable (m : (ℓ : Loc nD τ sig) → Buf (Elt Ideal) ℓ) (ρ : Dev nD → PrngReg)

/-- The block indices over the grid: the slab of x moves with the output block (sample on axis 0, token tile on the
    token axis), every other input is one whole block. -/
theorem idx_facts : ∀ t : Fin cfg0.N,
    win0_0.index t (0 : Fin 3) = win0_8.index t (0 : Fin 3) ∧ win0_0.index t (1 : Fin 3) = win0_8.index t (2 : Fin 3)
    ∧ win0_0.index t (2 : Fin 3) = 0 ∧ win0_8.index t (1 : Fin 3) = 0
    ∧ win0_8.index t (0 : Fin 3) ≤ 3 ∧ win0_8.index t (2 : Fin 3) ≤ 15
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every (sample, token tile) is some point's block index. -/
theorem idx_onto : ∀ (q0 : Fin 4) (q2 : Fin 16), ∃ t : Fin cfg0.N, win0_8.index t = ![q0.val, 0, q2.val] :=
  (by decide +kernel : ∀ (q0 : Fin 4) (q2 : Fin 16), ∃ t : Fin grid0.N, win0_8.index t = ![q0.val, 0, q2.val])

/-! ## The arrays as the region finds them -/

theorem V_v0 (c : Dev nD) : (V m c main_v0 : S16x2048.Idx → EReal) = m ((c : Thread nD τ).loc main_arg1) := by
  dsimp only [Gen.V, Gen.hostOps0]; after_results; rfl
theorem V_v1 (c : Dev nD) : (V m c main_v1 : S256x2048.Idx → EReal) = m ((c : Thread nD τ).loc main_arg3) := by
  dsimp only [Gen.V, Gen.hostOps0]; after_results; rfl
theorem V_v2 (c : Dev nD) : (V m c main_v2 : S256x2048.Idx → EReal) = m ((c : Thread nD τ).loc main_arg5) := by
  dsimp only [Gen.V, Gen.hostOps0]; after_results; rfl
theorem V_v3 (c : Dev nD) : (V m c main_v3 : S1024x2048.Idx → EReal) = m ((c : Thread nD τ).loc main_arg7) := by
  dsimp only [Gen.V, Gen.hostOps0]; after_results; rfl

/-- A vector [C] viewed as the column [C, 1], read at (r, 0), is the vector at r. -/
theorem column_apply {C : Nat} (β : (⟨1, ![C]⟩ : Shape).Idx → EReal) (h : (⟨1, ![C]⟩ : Shape).ShapeCasts ⟨2, ![C, 1]⟩) (r : Fin C) :
    shapeCast ⟨2, ![C, 1]⟩ β h (ix2 r 0) = β (ix1 r) := by
  refine shapeCast_apply β h (ix2 r 0) (ix1 r) ?_
  rw [Shape.rowMajor_val_one, Shape.rowMajor_val_two]
  show r.val = r.val * 1 + 0
  omega

theorem V_v4 (c : Dev nD) (r : Fin 16) : (V m c main_v4 : S16x1.Idx → EReal) (ix2 r 0) = (m ((c : Thread nD τ).loc main_arg2) : S16.Idx → EReal) (ix1 r) := by
  have e : (V m c main_v4 : S16x1.Idx → EReal) = shapeCast S16x1 (m ((c : Thread nD τ).loc main_arg2) : S16.Idx → EReal) shapeCasts_S16_S16x1 := by
    dsimp only [Gen.V, Gen.hostOps0]; after_results; rfl
  rw [e]; exact column_apply _ _ r
theorem V_v5 (c : Dev nD) (r : Fin 256) : (V m c main_v5 : S256x1.Idx → EReal) (ix2 r 0) = (m ((c : Thread nD τ).loc main_arg4) : S256.Idx → EReal) (ix1 r) := by
  have e : (V m c main_v5 : S256x1.Idx → EReal) = shapeCast S256x1 (m ((c : Thread nD τ).loc main_arg4) : S256.Idx → EReal) shapeCasts_S256_S256x1 := by
    dsimp only [Gen.V, Gen.hostOps0]; after_results; rfl
  rw [e]; exact column_apply _ _ r
theorem V_v6 (c : Dev nD) (r : Fin 256) : (V m c main_v6 : S256x1.Idx → EReal) (ix2 r 0) = (m ((c : Thread nD τ).loc main_arg6) : S256.Idx → EReal) (ix1 r) := by
  have e : (V m c main_v6 : S256x1.Idx → EReal) = shapeCast S256x1 (m ((c : Thread nD τ).loc main_arg6) : S256.Idx → EReal) shapeCasts_S256_S256x1 := by
    dsimp only [Gen.V, Gen.hostOps0]; after_results; rfl
  rw [e]; exact column_apply _ _ r

/-! ## The input blocks at a point -/

/-- The weight and bias windows hold their whole arrays at every point. -/
theorem blk1 (c : Dev nD) (t : Fin cfg0.N) : (iblk m c 1 t : S16x2048.Idx → EReal) = m ((c : Thread nD τ).loc main_arg1) := by
  obtain ⟨-, -, -, -, -, -, e0, e1, -⟩ := idx_facts t
  rw [← V_v0 m c]
  funext y
  unfold iblk
  rw [View.read_apply]
  show V m c main_v0 _ = V m c main_v0 y
  congr 1
  funext a; apply Fin.ext
  match a with
  | ⟨0, _⟩ => show win0_1.index t (0 : Fin 2) * 16 + 1 * (y 0).val = (y 0).val; omega
  | ⟨1, _⟩ => show win0_1.index t (1 : Fin 2) * 2048 + 1 * (y 1).val = (y 1).val; omega

theorem blk3 (c : Dev nD) (t : Fin cfg0.N) : (iblk m c 3 t : S256x2048.Idx → EReal) = m ((c : Thread nD τ).loc main_arg3) := by
  obtain ⟨-, -, -, -, -, -, -, -, -, -, e0, e1, -⟩ := idx_facts t
  rw [← V_v1 m c]
  funext y
  unfold iblk
  rw [View.read_apply]
  show V m c main_v1 _ = V m c main_v1 y
  congr 1
  funext a; apply Fin.ext
  match a with
  | ⟨0, _⟩ => show win0_3.index t (0 : Fin 2) * 256 + 1 * (y 0).val = (y 0).val; omega
  | ⟨1, _⟩ => show win0_3.index t (1 : Fin 2) * 2048 + 1 * (y 1).val = (y 1).val; omega
theorem blk5 (c : Dev nD) (t : Fin cfg0.N) : (iblk m c 5 t : S256x2048.Idx → EReal) = m ((c : Thread nD τ).loc main_arg5) := by
  obtain ⟨-, -, -, -, -, -, -, -, -, -, -, -, -, -, e0, e1, -⟩ := idx_facts t
  rw [← V_v2 m c]
  funext y
  unfold iblk
  rw [View.read_apply]
  show V m c main_v2 _ = V m c main_v2 y
  congr 1
  funext a; apply Fin.ext
  match a with
  | ⟨0, _⟩ => show win0_5.index t (0 : Fin 2) * 256 + 1 * (y 0).val = (y 0).val; omega
  | ⟨1, _⟩ => show win0_5.index t (1 : Fin 2) * 2048 + 1 * (y 1).val = (y 1).val; omega
theorem blk7 (c : Dev nD) (t : Fin cfg0.N) : (iblk m c 7 t : S1024x2048.Idx → EReal) = m ((c : Thread nD τ).loc main_arg7) := by
  obtain ⟨-, -, -, -, -, -, -, -, -, -, -, -, -, -, -, -, -, -, e0, e1⟩ := idx_facts t
  rw [← V_v3 m c]
  funext y
  unfold iblk
  rw [View.read_apply]
  show V m c main_v3 _ = V m c main_v3 y
  congr 1
  funext a; apply Fin.ext
  match a with
  | ⟨0, _⟩ => show win0_7.index t (0 : Fin 2) * 1024 + 1 * (y 0).val = (y 0).val; omega
  | ⟨1, _⟩ => show win0_7.index t (1 : Fin 2) * 2048 + 1 * (y 1).val = (y 1).val; omega

/-- The bias windows hold their whole columns: read at (r, 0) they give the bias of row r. -/
theorem blk2 (c : Dev nD) (t : Fin cfg0.N) (r : Fin 16) :
    (iblk m c 2 t : S16x1.Idx → EReal) (ix2 r 0) = (m ((c : Thread nD τ).loc main_arg2) : S16.Idx → EReal) (ix1 r) := by
  obtain ⟨-, -, -, -, -, -, -, -, e0, e1, -⟩ := idx_facts t
  rw [← V_v4 m c r]
  unfold iblk
  rw [View.read_apply]
  show V m c main_v4 _ = V m c main_v4 (ix2 r 0)
  congr 1
  funext a; apply Fin.ext
  match a with
  | ⟨0, _⟩ => show win0_2.index t (0 : Fin 2) * 16 + 1 * r.val = r.val; omega
  | ⟨1, _⟩ => show win0_2.index t (1 : Fin 2) * 1 + 1 * 0 = 0; omega
theorem blk4 (c : Dev nD) (t : Fin cfg0.N) (r : Fin 256) :
    (iblk m c 4 t : S256x1.Idx → EReal) (ix2 r 0) = (m ((c : Thread nD τ).loc main_arg4) : S256.Idx → EReal) (ix1 r) := by
  obtain ⟨-, -, -, -, -, -, -, -, -, -, -, -, e0, e1, -⟩ := idx_facts t
  rw [← V_v5 m c r]
  unfold iblk
  rw [View.read_apply]
  show V m c main_v5 _ = V m c main_v5 (ix2 r 0)
  congr 1
  funext a; apply Fin.ext
  match a with
  | ⟨0, _⟩ => show win0_4.index t (0 : Fin 2) * 256 + 1 * r.val = r.val; omega
  | ⟨1, _⟩ => show win0_4.index t (1 : Fin 2) * 1 + 1 * 0 = 0; omega
theorem blk6 (c : Dev nD) (t : Fin cfg0.N) (r : Fin 256) :
    (iblk m c 6 t : S256x1.Idx → EReal) (ix2 r 0) = (m ((c : Thread nD τ).loc main_arg6) : S256.Idx → EReal) (ix1 r) := by
  obtain ⟨-, -, -, -, -, -, -, -, -, -, -, -, -, -, -, -, e0, e1, -⟩ := idx_facts t
  rw [← V_v6 m c r]
  unfold iblk
  rw [View.read_apply]
  show V m c main_v6 _ = V m c main_v6 (ix2 r 0)
  congr 1
  funext a; apply Fin.ext
  match a with
  | ⟨0, _⟩ => show win0_6.index t (0 : Fin 2) * 256 + 1 * r.val = r.val; omega
  | ⟨1, _⟩ => show win0_6.index t (1 : Fin 2) * 1 + 1 * 0 = 0; omega

/-- The slab of x at a point: token l of the slab is token (tile · 256 + l) of the point's sample. -/
theorem blk0 (c : Dev nD) (t : Fin cfg0.N) (l : Fin 256) (q : Fin 2048) (k : S4x4096x2048.Idx)
    (h0 : (k 0).val = win0_8.index t (0 : Fin 3)) (h1 : (k 1).val = win0_8.index t (2 : Fin 3) * 256 + l.val) (h2 : (k 2).val = q.val) :
    (iblk m c 0 t : S1x256x2048.Idx → EReal) (ix3 0 l q) = (m ((c : Thread nD τ).loc main_arg0) : S4x4096x2048.Idx → EReal) k := by
  obtain ⟨e0, e1, e2, -⟩ := idx_facts t
  rw [← V_main_arg0 m c]
  unfold iblk
  rw [View.read_apply]
  show V m c main_arg0 _ = V m c main_arg0 k
  congr 1
  funext a; apply Fin.ext
  match a with
  | ⟨0, _⟩ => show win0_0.index t (0 : Fin 3) * 1 + 1 * 0 = (k 0).val; omega
  | ⟨1, _⟩ => show win0_0.index t (1 : Fin 3) * 256 + 1 * l.val = (k 1).val; omega
  | ⟨2, _⟩ => show win0_0.index t (2 : Fin 3) * 2048 + 1 * q.val = (k 2).val; omega

/-! ## What a point writes back, the cover, the array -/

/-- The packed result of the argument arrays as launched. -/
abbrev result (c : Dev nD) : S4x3088x4096.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Point t writes back block t of the packed result. -/
theorem flushed_eq (c : Dev nD) (t : Fin cfg0.N) :
    (dats m 0 c).flushed 8 t = ((cfg0.win 8).blk t).view.read (Elt Ideal) (result m c) := by
  rw [Value.flushed8, Cert.KernelIdeal.KBlock.out0_8_eq (iblk m c 0 t) (iblk m c 1 t) (iblk m c 2 t) (iblk m c 3 t) (iblk m c 4 t) (iblk m c 5 t) (iblk m c 6 t) (iblk m c 7 t)]
  obtain ⟨-, -, -, e81, e80, e82, -⟩ := idx_facts t
  funext y
  show Cert.Spec.blockG (iblk m c 0 t) (iblk m c 1 t) (iblk m c 2 t) (iblk m c 3 t) (iblk m c 4 t) (iblk m c 5 t) (iblk m c 6 t) (iblk m c 7 t) y
    = result m c (((cfg0.win 8).blk t).view.emb y)
  have hj0 : ((((cfg0.win 8).blk t).view.emb y) 0).val = win0_8.index t (0 : Fin 3) * 1 + 1 * (y 0).val := rfl
  have hj1 : ((((cfg0.win 8).blk t).view.emb y) 1).val = win0_8.index t (1 : Fin 3) * 3088 + 1 * (y 1).val := rfl
  have hj2 : ((((cfg0.win 8).blk t).view.emb y) 2).val = win0_8.index t (2 : Fin 3) * 256 + 1 * (y 2).val := rfl
  have hy0 : (y 0).val < 1 := (y 0).isLt
  refine Cert.Spec.blockG_eq_G _ _ _ _ _ _ _ _ _ _ _ _ _ _ _ _
    (fun r q => congrFun (blk1 m c t) _) (fun r => blk2 m c t r)
    (fun r q => congrFun (blk3 m c t) _) (fun r => blk4 m c t r)
    (fun r q => congrFun (blk5 m c t) _) (fun r => blk6 m c t r)
    (fun r q => congrFun (blk7 m c t) _) y _ (by rw [hj1]; omega) (fun q => ?_)
  exact blk0 m c t (y 2) q _ (by rw [hj0]; omega) (by rw [hj2]; omega) rfl

/-- An index of the result is in point t's block iff each coordinate is in the block's range on its axis. -/
theorem mem_blk (t : Fin cfg0.N) (i : S4x3088x4096.Idx) :
    i ∈ ((cfg0.win 8).blk t).view.set ↔ ∀ a : Fin 3, win0_8.index t a * S1x3088x256.size a ≤ (i a).val ∧ (i a).val < win0_8.index t a * S1x3088x256.size a + S1x3088x256.size a := by
  show i ∈ ((View.whole main_v7).slice (win0_8.rect t)).set ↔ _
  rw [View.set_slice_whole, Rect.mem_set_unit]
  exact Iff.rfl

/-- Every index of the result is in some point's block: sample (i 0), token tile (i 2) / 256. -/
theorem cover (i : S4x3088x4096.Idx) : ∃ t : Fin cfg0.N, (cfg0.win 8).flush t = true ∧ i ∈ ((cfg0.win 8).blk t).view.set := by
  have hi0 : (i 0).val < 4 := (i 0).isLt
  have hi1 : (i 1).val < 3088 := (i 1).isLt
  have hi2 : (i 2).val < 4096 := (i 2).isLt
  obtain ⟨t, ht⟩ := idx_onto ⟨(i 0).val, hi0⟩ ⟨(i 2).val / 256, by omega⟩
  have q0 : win0_8.index t (0 : Fin 3) = (i 0).val := congrFun ht 0
  have q1 : win0_8.index t (1 : Fin 3) = 0 := congrFun ht 1
  have q2 : win0_8.index t (2 : Fin 3) = (i 2).val / 256 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 3088 ≤ (i 1).val ∧ (i 1).val < win0_8.index t (1 : Fin 3) * 3088 + 3088; omega
  | ⟨2, _⟩ => show win0_8.index t (2 : Fin 3) * 256 ≤ (i 2).val ∧ (i 2).val < win0_8.index t (2 : Fin 3) * 256 + 256; omega

/-- So the result array ends holding the packed result. -/
theorem final (c : Dev nD) : (dats m 0 c).arrAt 8 cfg0.N = result m c :=
  (dats m 0 c).arrAt_eq_of_cover 8 (result m c) (fun t _ => flushed_eq m c t) cover

/-- The run, read: the result array at the packed result of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.KValue

end
-- ==== Proof.RefTerm.lean ====
/-
  The reference's result as one composed term of its argument arrays.

  Each projection is the host's product of the weight rows with x, contracting the width axis: [C, 2048] × [4, 4096, 2048]
  gives [C, 4, 4096], transposed to sample-major [4, C, 4096]; the bias is broadcast over samples and tokens and added.
  The head table is ⌊h / 4⌋ for h < 16, computed as a floor division of integers from the truncating one (the truncating quotient,
  less one where the signs differ and the remainder is not zero), then wrapped as a possibly negative index
  (add 4 where negative) and laid out as a column. An expanded gate views [4, 256, 4096] as [4, 4, 64, 4096], gathers
  along the head axis through the table, and views the [4, 16, 64, 4096] result as [4, 1024, 4096]. The result is the
  concatenation along the channel axis.
-/
import proofs.«107365_j81681688035849_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The projection A with its bias: [4, 16, 4096]. -/
def termA (x : FVec F S4x4096x2048 .f32) (Wa : FVec F S16x2048 .f32) (ba : FVec F S16 .f32) : FVec F S4x16x4096 .f32 :=
  addf (transpose S4x16x4096 [1, 0, 2] (Host.dotGeneral dot_S16x2048_S4x4096x2048_S16x4x4096_1_2_0_01_n_n none Wa x) transposes_S16x4x4096_S4x16x4096_1_0_2)
    (broadcastInDim S4x16x4096 ![0, 1, 2] bcast_S1x16x1_S4x16x4096_0_1_2 (broadcastInDim S1x16x1 ![1] bcast_S16_S1x16x1_1 ba))

/-- A key/value projection with its bias: [4, 256, 4096]. -/
def termKV (x : FVec F S4x4096x2048 .f32) (W : FVec F S256x2048 .f32) (β : FVec F S256 .f32) : FVec F S4x256x4096 .f32 :=
  addf (transpose S4x256x4096 [1, 0, 2] (Host.dotGeneral dot_S256x2048_S4x4096x2048_S256x4x4096_1_2_0_01_n_n none W x) transposes_S256x4x4096_S4x256x4096_1_0_2)
    (broadcastInDim S4x256x4096 ![0, 1, 2] bcast_S1x256x1_S4x256x4096_0_1_2 (broadcastInDim S1x256x1 ![1] bcast_S256_S1x256x1_1 β))

/-- The projection V, no bias: [4, 1024, 4096]. -/
def termV (x : FVec F S4x4096x2048 .f32) (Wv : FVec F S1024x2048 .f32) : FVec F S4x1024x4096 .f32 :=
  transpose S4x1024x4096 [1, 0, 2] (Host.dotGeneral dot_S1024x2048_S4x4096x2048_S1024x4x4096_1_2_0_01_n_n none Wv x) transposes_S1024x4x4096_S4x1024x4096_1_0_2

/-- ⌊h / 4⌋ for h < 16: the truncating quotient, less one where the signs differ and the remainder is not zero. -/
def headQuot : IVec S16 32 :=
  let a : IVec S16 32 := iotaInDim S16 32 0
  let d : IVec S_ 32 := constantI S_ 32 4#32
  let q : IVec S16 32 := Host.divsi a (broadcastInDim S16 ![] bcast_S_S16 d)
  let differ : IVec S16 1 := cmpi .ne (signi a) (broadcastInDim S16 ![] bcast_S_S16 (signi d))
  let inexact : IVec S16 1 := cmpi .ne (Host.remsi a (broadcastInDim S16 ![] bcast_S_S16 d)) (broadcastInDim S16 ![] bcast_S_S16 (constantI S_ 32 0#32))
  select (andi differ inexact) (subi q (broadcastInDim S16 ![] bcast_S_S16 (constantI S_ 32 1#32))) q

/-- The head table as the gather takes it: negative entries wrapped by 4, as a column [16, 1]. -/
def headCol : IVec S16x1 32 :=
  broadcastInDim S16x1 ![0] bcast_S16_S16x1_0
    (select (cmpi .slt headQuot (broadcastInDim S16 ![] bcast_S_S16 (constantI S_ 32 0#32)))
      (addi headQuot (broadcastInDim S16 ![] bcast_S_S16 (constantI S_ 32 4#32))) headQuot)

/-- A key/value array [4, 256, 4096] with each head repeated for its group: [4, 1024, 4096]. -/
def expand (v : FVec F S4x256x4096 .f32) : FVec F S4x1024x4096 .f32 :=
  shapeCast S4x1024x4096
    (Host.gather gather_S4x4x64x4096_S16x1_S4x16x64x4096_023_1_n_n_1_1_41644096
      (shapeCast S4x4x64x4096 v shapeCasts_S4x256x4096_S4x4x64x4096) headCol)
    shapeCasts_S4x16x64x4096_S4x1024x4096

/-- The packed result [4, 3088, 4096]. -/
def refTerm (x : FVec F S4x4096x2048 .f32) (Wa : FVec F S16x2048 .f32) (ba : FVec F S16 .f32)
    (Wb : FVec F S256x2048 .f32) (bb : FVec F S256 .f32) (Wc : FVec F S256x2048 .f32) (bc : FVec F S256 .f32)
    (Wv : FVec F S1024x2048 .f32) : FVec F S4x3088x4096 .f32 :=
  concatenate S4x3088x4096 1
    [⟨S4x1024x4096, expand (termKV x Wb bb)⟩, ⟨S4x1024x4096, termV x Wv⟩, ⟨S4x1024x4096, expand (termKV x Wc bc)⟩, ⟨S4x16x4096, termA x Wa ba⟩]
    concatenates_S4x1024x4096_S4x1024x4096_S4x1024x4096_S4x16x4096_S4x3088x4096_d1

end Cert.ReferenceIdeal.RefTerm

end
-- ==== Proof.RefOps.lean ====
/-
  The reference's @main as a straight line of host operations, the two calls of the floor division unfolded at their
  sites, and its run: every weakly fair execution terminates with each buffer at the fold of the operations over the
  launch contents.
-/
import proofs.«107365_j81681688035849_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- @main's operations in order, each call of the floor division unfolded at its site over that call's buffers: the
    divisor converted, broadcast, the truncating quotient, the two signs and their comparison, the remainder and its
    comparison with zero, the conjunction, the quotient less one, and the selection. -/
abbrev ops : List (HloOp τ sig (Elt F)) :=
  [ binary main_arg1 main_arg0 main_v0 ((fun l r => Host.dotGeneral dot_S16x2048_S4x4096x2048_S16x4x4096_1_2_0_01_n_n none l r) : (⟨S16x2048, .f32⟩ : BufTy).Contents (Elt F) → (⟨S4x4096x2048, .f32⟩ : BufTy).Contents (Elt F) → (⟨S16x4x4096, .f32⟩ : BufTy).Contents (Elt F)),
    unary main_v0 main_v1 ((transpose S4x16x4096 [1, 0, 2] · transposes_S16x4x4096_S4x16x4096_1_0_2) : (⟨S16x4x4096, .f32⟩ : BufTy).Contents (Elt F) → (⟨S4x16x4096, .f32⟩ : BufTy).Contents (Elt F)),
    unary main_arg2 main_v2 (broadcastInDim S1x16x1 ![1] bcast_S16_S1x16x1_1 : (⟨S16, .f32⟩ : BufTy).Contents (Elt F) → (⟨S1x16x1, .f32⟩ : BufTy).Contents (Elt F)),
    unary main_v2 main_v3 (broadcastInDim S4x16x4096 ![0, 1, 2] bcast_S1x16x1_S4x16x4096_0_1_2 : (⟨S1x16x1, .f32⟩ : BufTy).Contents (Elt F) → (⟨S4x16x4096, .f32⟩ : BufTy).Contents (Elt F)),
    binary main_v1 main_v3 main_v4 (addf : (⟨S4x16x4096, .f32⟩ : BufTy).Contents (Elt F) → (⟨S4x16x4096, .f32⟩ : BufTy).Contents (Elt F) → (⟨S4x16x4096, .f32⟩ : BufTy).Contents (Elt F)),
    binary main_arg3 main_arg0 main_v5 ((fun l r => Host.dotGeneral dot_S256x2048_S4x4096x2048_S256x4x4096_1_2_0_01_n_n none l r) : (⟨S256x2048, .f32⟩ : BufTy).Contents (Elt F) → (⟨S4x4096x2048, .f32⟩ : BufTy).Contents (Elt F) → (⟨S256x4x4096, .f32⟩ : BufTy).Contents (Elt F)),
    unary main_v5 main_v6 ((transpose S4x256x4096 [1, 0, 2] · transposes_S256x4x4096_S4x256x4096_1_0_2) : (⟨S256x4x4096, .f32⟩ : BufTy).Contents (Elt F) → (⟨S4x256x4096, .f32⟩ : BufTy).Contents (Elt F)),
    unary main_arg4 main_v7 (broadcastInDim S1x256x1 ![1] bcast_S256_S1x256x1_1 : (⟨S256, .f32⟩ : BufTy).Contents (Elt F) → (⟨S1x256x1, .f32⟩ : BufTy).Contents (Elt F)),
    unary main_v7 main_v8 (broadcastInDim S4x256x4096 ![0, 1, 2] bcast_S1x256x1_S4x256x4096_0_1_2 : (⟨S1x256x1, .f32⟩ : BufTy).Contents (Elt F) → (⟨S4x256x4096, .f32⟩ : BufTy).Contents (Elt F)),
    binary main_v6 main_v8 main_v9 (addf : (⟨S4x256x4096, .f32⟩ : BufTy).Contents (Elt F) → (⟨S4x256x4096, .f32⟩ : BufTy).Contents (Elt F) → (⟨S4x256x4096, .f32⟩ : BufTy).Contents (Elt F)),
    binary main_arg5 main_arg0 main_v10 ((fun l r => Host.dotGeneral dot_S256x2048_S4x4096x2048_S256x4x4096_1_2_0_01_n_n none l r) : (⟨S256x2048, .f32⟩ : BufTy).Contents (Elt F) → (⟨S4x4096x2048, .f32⟩ : BufTy).Contents (Elt F) → (⟨S256x4x4096, .f32⟩ : BufTy).Contents (Elt F)),
    unary main_v10 main_v11 ((transpose S4x256x4096 [1, 0, 2] · transposes_S256x4x4096_S4x256x4096_1_0_2) : (⟨S256x4x4096, .f32⟩ : BufTy).Contents (Elt F) → (⟨S4x256x4096, .f32⟩ : BufTy).Contents (Elt F)),
    unary main_arg6 main_v12 (broadcastInDim S1x256x1 ![1] bcast_S256_S1x256x1_1 : (⟨S256, .f32⟩ : BufTy).Contents (Elt F) → (⟨S1x256x1, .f32⟩ : BufTy).Contents (Elt F)),
    unary main_v12 main_v13 (broadcastInDim S4x256x4096 ![0, 1, 2] bcast_S1x256x1_S4x256x4096_0_1_2 : (⟨S1x256x1, .f32⟩ : BufTy).Contents (Elt F) → (⟨S4x256x4096, .f32⟩ : BufTy).Contents (Elt F)),
    binary main_v11 main_v13 main_v14 (addf : (⟨S4x256x4096, .f32⟩ : BufTy).Contents (Elt F) → (⟨S4x256x4096, .f32⟩ : BufTy).Contents (Elt F) → (⟨S4x256x4096, .f32⟩ : BufTy).Contents (Elt F)),
    binary main_arg7 main_arg0 main_v15 ((fun l r => Host.dotGeneral dot_S1024x2048_S4x4096x2048_S1024x4x4096_1_2_0_01_n_n none l r) : (⟨S1024x2048, .f32⟩ : BufTy).Contents (Elt F) → (⟨S4x4096x2048, .f32⟩ : BufTy).Contents (Elt F) → (⟨S1024x4x4096, .f32⟩ : BufTy).Contents (Elt F)),
    unary main_v15 main_v16 ((transpose S4x1024x4096 [1, 0, 2] · transposes_S1024x4x4096_S4x1024x4096_1_0_2) : (⟨S1024x4x4096, .f32⟩ : BufTy).Contents (Elt F) → (⟨S4x1024x4096, .f32⟩ : BufTy).Contents (Elt F)),
    nullary main_v17 (iotaInDim S16 32 0),
    nullary main_c (constantI S_ 32 4#32),
    TRef.unary (.of main_c) main_call0.v0 id,
    TRef.unary main_call0.v0 main_call0.v1 (broadcastInDim S16 ![] bcast_S_S16),
    TRef.binary (.of main_v17) main_call0.v1 main_call0.v2 Host.divsi,
    TRef.unary (.of main_v17) main_call0.v3 signi,
    TRef.unary main_call0.v0 main_call0.v4 signi,
    TRef.unary main_call0.v4 main_call0.v5 (broadcastInDim S16 ![] bcast_S_S16),
    TRef.binary main_call0.v3 main_call0.v5 main_call0.v6 (cmpi .ne),
    TRef.unary main_call0.v0 main_call0.v7 (broadcastInDim S16 ![] bcast_S_S16),
    TRef.binary (.of main_v17) main_call0.v7 main_call0.v8 Host.remsi,
    TRef.nullary main_call0.c (constantI S_ 32 0#32),
    TRef.unary main_call0.c main_call0.v9 (broadcastInDim S16 ![] bcast_S_S16),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16 ![] bcast_S_S16),
    TRef.binary main_call0.v2 main_call0.v12 main_call0.v13 subi,
    TRef.ternary main_call0.v11 main_call0.v13 main_call0.v2 main_call0.call0.v0 select,
    reshape main_v9 main_v19 rfl shapeCasts_S4x256x4096_S4x4x64x4096,
    nullary main_c_0 (constantI S_ 32 0#32),
    unary main_c_0 main_v20 (broadcastInDim S16 ![] bcast_S_S16 : (⟨S_, .i32⟩ : BufTy).Contents (Elt F) → (⟨S16, .i32⟩ : BufTy).Contents (Elt F)),
    binary main_v18 main_v20 main_v21 (cmpi .slt : (⟨S16, .i32⟩ : BufTy).Contents (Elt F) → (⟨S16, .i32⟩ : BufTy).Contents (Elt F) → (⟨S16, .i1⟩ : BufTy).Contents (Elt F)),
    nullary main_c_1 (constantI S_ 32 4#32),
    unary main_c_1 main_v22 (broadcastInDim S16 ![] bcast_S_S16 : (⟨S_, .i32⟩ : BufTy).Contents (Elt F) → (⟨S16, .i32⟩ : BufTy).Contents (Elt F)),
    binary main_v18 main_v22 main_v23 (addi : (⟨S16, .i32⟩ : BufTy).Contents (Elt F) → (⟨S16, .i32⟩ : BufTy).Contents (Elt F) → (⟨S16, .i32⟩ : BufTy).Contents (Elt F)),
    ternary main_v21 main_v23 main_v18 main_v24 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v24 main_v25 (broadcastInDim S16x1 ![0] bcast_S16_S16x1_0 : (⟨S16, .i32⟩ : BufTy).Contents (Elt F) → (⟨S16x1, .i32⟩ : BufTy).Contents (Elt F)),
    binary main_v19 main_v25 main_v26 ((fun x i => Host.gather gather_S4x4x64x4096_S16x1_S4x16x64x4096_023_1_n_n_1_1_41644096 x i) : (⟨S4x4x64x4096, .f32⟩ : BufTy).Contents (Elt F) → (⟨S16x1, .i32⟩ : BufTy).Contents (Elt F) → (⟨S4x16x64x4096, .f32⟩ : BufTy).Contents (Elt F)),
    reshape main_v26 main_v27 rfl shapeCasts_S4x16x64x4096_S4x1024x4096,
    nullary main_v28 (iotaInDim S16 32 0),
    nullary main_c_2 (constantI S_ 32 4#32),
    TRef.unary (.of main_c_2) main_call1.v0 id,
    TRef.unary main_call1.v0 main_call1.v1 (broadcastInDim S16 ![] bcast_S_S16),
    TRef.binary (.of main_v28) main_call1.v1 main_call1.v2 Host.divsi,
    TRef.unary (.of main_v28) main_call1.v3 signi,
    TRef.unary main_call1.v0 main_call1.v4 signi,
    TRef.unary main_call1.v4 main_call1.v5 (broadcastInDim S16 ![] bcast_S_S16),
    TRef.binary main_call1.v3 main_call1.v5 main_call1.v6 (cmpi .ne),
    TRef.unary main_call1.v0 main_call1.v7 (broadcastInDim S16 ![] bcast_S_S16),
    TRef.binary (.of main_v28) main_call1.v7 main_call1.v8 Host.remsi,
    TRef.nullary main_call1.c (constantI S_ 32 0#32),
    TRef.unary main_call1.c main_call1.v9 (broadcastInDim S16 ![] bcast_S_S16),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16 ![] bcast_S_S16),
    TRef.binary main_call1.v2 main_call1.v12 main_call1.v13 subi,
    TRef.ternary main_call1.v11 main_call1.v13 main_call1.v2 main_call1.call0.v0 select,
    reshape main_v14 main_v30 rfl shapeCasts_S4x256x4096_S4x4x64x4096,
    nullary main_c_3 (constantI S_ 32 0#32),
    unary main_c_3 main_v31 (broadcastInDim S16 ![] bcast_S_S16 : (⟨S_, .i32⟩ : BufTy).Contents (Elt F) → (⟨S16, .i32⟩ : BufTy).Contents (Elt F)),
    binary main_v29 main_v31 main_v32 (cmpi .slt : (⟨S16, .i32⟩ : BufTy).Contents (Elt F) → (⟨S16, .i32⟩ : BufTy).Contents (Elt F) → (⟨S16, .i1⟩ : BufTy).Contents (Elt F)),
    nullary main_c_4 (constantI S_ 32 4#32),
    unary main_c_4 main_v33 (broadcastInDim S16 ![] bcast_S_S16 : (⟨S_, .i32⟩ : BufTy).Contents (Elt F) → (⟨S16, .i32⟩ : BufTy).Contents (Elt F)),
    binary main_v29 main_v33 main_v34 (addi : (⟨S16, .i32⟩ : BufTy).Contents (Elt F) → (⟨S16, .i32⟩ : BufTy).Contents (Elt F) → (⟨S16, .i32⟩ : BufTy).Contents (Elt F)),
    ternary main_v32 main_v34 main_v29 main_v35 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v35 main_v36 (broadcastInDim S16x1 ![0] bcast_S16_S16x1_0 : (⟨S16, .i32⟩ : BufTy).Contents (Elt F) → (⟨S16x1, .i32⟩ : BufTy).Contents (Elt F)),
    binary main_v30 main_v36 main_v37 ((fun x i => Host.gather gather_S4x4x64x4096_S16x1_S4x16x64x4096_023_1_n_n_1_1_41644096 x i) : (⟨S4x4x64x4096, .f32⟩ : BufTy).Contents (Elt F) → (⟨S16x1, .i32⟩ : BufTy).Contents (Elt F) → (⟨S4x16x64x4096, .f32⟩ : BufTy).Contents (Elt F)),
    reshape main_v37 main_v38 rfl shapeCasts_S4x16x64x4096_S4x1024x4096,
    nary ![main_v27, main_v16, main_v38, main_v4] main_v39 (fun u => concatenate S4x3088x4096 1 [⟨S4x1024x4096, u 0⟩, ⟨S4x1024x4096, u 1⟩, ⟨S4x1024x4096, u 2⟩, ⟨S4x16x4096, u 3⟩] concatenates_S4x1024x4096_S4x1024x4096_S4x1024x4096_S4x16x4096_S4x3088x4096_d1) ]

set_option maxRecDepth 8192 in
/-- @main is that straight line: the two functions unfolded at their calls, sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nary_bufs_sub ..⟩

/-- Every weakly fair execution of @main terminates with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference's run: every weakly fair execution of its @main terminates with the result buffer at the composed term
  of the argument arrays, the arguments unchanged.
-/
import proofs.«107365_j81681688035849_1_alg».proof.Proof.RefTerm
import proofs.«107365_j81681688035849_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The line without its last operation, the concatenation. -/
def body : List (HloOp τ sig (Elt F)) := ops.take 77

theorem ops_split : (ops : List (HloOp τ sig (Elt F))) = body ++ [nary ![main_v27, main_v16, main_v38, main_v4] main_v39 (fun u => concatenate S4x3088x4096 1 [⟨S4x1024x4096, u 0⟩, ⟨S4x1024x4096, u 1⟩, ⟨S4x1024x4096, u 2⟩, ⟨S4x16x4096, u 3⟩] concatenates_S4x1024x4096_S4x1024x4096_S4x1024x4096_S4x16x4096_S4x3088x4096_d1)] := rfl

/-- Folding a line followed by one more operation is that operation's result on the line's fold. -/
theorem after_snoc {Val : EltTy → Type} (l : List (HloOp τ sig Val)) (op : HloOp τ sig Val) (V : Valuation τ sig Val) :
    after (l ++ [op]) V = op.result (after l V) := by
  induction l generalizing V with
  | nil => rfl
  | cons o l ih => exact ih _

/-- A buffer other than the result holds after the whole line what it holds before the concatenation. -/
theorem after_ops_other (V : Valuation τ sig (Elt F)) {r : Ref sig .tc} (h : r ≠ main_v39) :
    after ops V (r : DevRef τ sig) = after body V (r : DevRef τ sig) := by
  rw [ops_split, after_snoc, nary_result_ne]
  exact h

/-! ## The pieces -/

attribute [local irreducible] Host.gather in
set_option maxRecDepth 8192 in
set_option maxHeartbeats 2000000 in
/-- The projection A with its bias. -/
theorem v4_eq (V : Valuation τ sig (Elt F)) :
    after ops V (main_v4 : DevRef τ sig) = RefTerm.termA (V (main_arg0 : DevRef τ sig)) (V (main_arg1 : DevRef τ sig)) (V (main_arg2 : DevRef τ sig)) := by
  after_results_simp
  rfl

attribute [local irreducible] Host.gather in
set_option maxRecDepth 8192 in
set_option maxHeartbeats 2000000 in
/-- The projection V. -/
theorem v16_eq (V : Valuation τ sig (Elt F)) :
    after ops V (main_v16 : DevRef τ sig) = RefTerm.termV (V (main_arg0 : DevRef τ sig)) (V (main_arg7 : DevRef τ sig)) := by
  after_results_simp
  rfl

attribute [local irreducible] Host.gather in
set_option maxRecDepth 8192 in
set_option maxHeartbeats 2000000 in
/-- The first expanded gate. -/
theorem v27_eq (V : Valuation τ sig (Elt F)) :
    after ops V (main_v27 : DevRef τ sig) = RefTerm.expand (RefTerm.termKV (V (main_arg0 : DevRef τ sig)) (V (main_arg3 : DevRef τ sig)) (V (main_arg4 : DevRef τ sig))) := by
  after_results_simp
  rfl

attribute [local irreducible] Host.gather in
set_option maxRecDepth 8192 in
set_option maxHeartbeats 2000000 in
/-- The second expanded gate. -/
theorem v38_eq (V : Valuation τ sig (Elt F)) :
    after ops V (main_v38 : DevRef τ sig) = RefTerm.expand (RefTerm.termKV (V (main_arg0 : DevRef τ sig)) (V (main_arg5 : DevRef τ sig)) (V (main_arg6 : DevRef τ sig))) := by
  after_results_simp
  rfl

attribute [local irreducible] Host.gather concatenate in
set_option maxRecDepth 8192 in
/-- The result buffer holds the composed term of the arguments. -/
theorem out_eq (V : Valuation τ sig (Elt F)) :
    after ops V (main_v39 : DevRef τ sig) = RefTerm.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split, after_snoc, nary4_result,
    ← after_ops_other V (r := main_v27) (by decide), ← after_ops_other V (r := main_v16) (by decide),
    ← after_ops_other V (r := main_v38) (by decide), ← after_ops_other V (r := main_v4) (by decide),
    v27_eq, v16_eq, v38_eq, v4_eq]
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

set_option maxRecDepth 8192 in
theorem arg4_eq (V : Valuation τ sig (Elt F)) :
    after ops V (main_arg4 : DevRef τ sig) = V (main_arg4 : DevRef τ sig) := by
  after_results_simp

set_option maxRecDepth 8192 in
theorem arg5_eq (V : Valuation τ sig (Elt F)) :
    after ops V (main_arg5 : DevRef τ sig) = V (main_arg5 : DevRef τ sig) := by
  after_results_simp

set_option maxRecDepth 8192 in
theorem arg6_eq (V : Valuation τ sig (Elt F)) :
    after ops V (main_arg6 : DevRef τ sig) = V (main_arg6 : DevRef τ sig) := by
  after_results_simp

set_option maxRecDepth 8192 in
theorem arg7_eq (V : Valuation τ sig (Elt F)) :
    after ops V (main_arg7 : DevRef τ sig) = V (main_arg7 : DevRef τ sig) := by
  after_results_simp

/-- Every weakly fair execution of @main terminates with the result buffer at the composed term and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = RefTerm.refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.RefRun

end
-- ==== Proof.LibDotRowsStack.lean ====
/-
  A product of an array of rows with a stack of arrays of rows, read at one entry.

  For dimension numbers that contract the left operand's axis 1 with the right operand's axis 2, keep the left
  operand's axis 0 and the right operand's axes 0 and 1, and batch nothing — the product of a [C × K] array of rows
  with an [A × B × K] stack, every row of the one against every row of the other — the operand indices at result entry
  (c, a, b) and contraction position k are (c, k) and (a, b, k). So the host's `dot_general` (and the
  accumulate-into-zero `tpu.matmul`) is, at the ideal values, the entry's plain sum
  ∑ q < K, w (c, q) · x (a, b, q)  over the shared axis.
-/
import Idealize.ShloMosaic.PureOps.Ideal.Laws
import Idealize.ShloMosaic.Lib.ValueIdx

noncomputable section

open scoped BigOperators

namespace Cert.Lib.DotRowsStack

open Idealize.ShloMosaic Idealize.ShloMosaic.ValueIdx

variable {C K A B : Nat}

/-- Dimension numbers of a rows-by-stack product [C, K] × [A, B, K] → [C, A, B]: contract left axis 1 with right
    axis 2, the result's axis 0 from the left operand's rows, its axes 1 and 2 from the right operand's axes 0 and 1,
    no batch axis. -/
structure RowsStack (d : DotDims ⟨2, ![C, K]⟩ ⟨3, ![A, B, K]⟩ ⟨3, ![C, A, B]⟩) : Prop where
  lc : d.lhsContracting = [1]
  rc : d.rhsContracting = [2]
  ln : d.lhsNonContracting = [0]
  rn : d.rhsNonContracting = [0, 1]
  lb : d.lhsBatch = []
  rb : d.rhsBatch = []

variable {d : DotDims ⟨2, ![C, K]⟩ ⟨3, ![A, B, K]⟩ ⟨3, ![C, A, B]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsStack.rank_contr (h : RowsStack d) : d.contr.rank = 1 := by rw [d.rank_contr, h.lc]; rfl

/-- The contracted axis has the shared length K. -/
theorem RowsStack.size_contr (h : RowsStack d) : d.contr.size ⟨0, by rw [h.rank_contr]; exact Nat.one_pos⟩ = K := by
  have := d.size_contr 0 (by rw [h.lc]; exact Nat.one_pos)
  rw [this]; simp only [h.lc]; rfl

/-- The left operand's row is the result's axis-0 coordinate. -/
theorem RowsStack.lhs_row (h : RowsStack d) (j : (⟨3, ![C, A, B]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsStack.lhs_col (h : RowsStack d) (j : (⟨3, ![C, A, B]⟩ : Shape).Idx) (k : d.contr.Idx) :
    (d.lhsIdx j k 1).val = (k ⟨0, by rw [h.rank_contr]; exact Nat.one_pos⟩).val :=
  d.lhsIdx_val_of_single h.lc j k

/-- The right operand's axis-0 coordinate is the result's axis-1 coordinate: its kept axes come after the left
    operand's one kept axis among the result's axes. -/
theorem RowsStack.rhs_outer (h : RowsStack d) (j : (⟨3, ![C, A, B]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_cons_self)]
  simp only [Fin.val_cast]
  exact val_congr j _ _ _ _ (by simp [h.lb, h.ln, h.rn])

/-- The right operand's axis-1 coordinate is the result's axis-2 coordinate. -/
theorem RowsStack.rhs_inner (h : RowsStack d) (j : (⟨3, ![C, A, B]⟩ : Shape).Idx) (k : d.contr.Idx) :
    (d.rhsIdx j k 1).val = (j 2).val := by
  unfold DotDims.rhsIdx
  rw [dif_neg (by rw [h.rb]; exact List.not_mem_nil),
    dif_pos (by rw [h.rn]; exact List.mem_cons_of_mem _ List.mem_cons_self)]
  simp only [Fin.val_cast]
  exact val_congr j _ _ _ _ (by simp [h.lb, h.ln, h.rn])

/-- The right operand's last coordinate is the contraction position. -/
theorem RowsStack.rhs_col (h : RowsStack d) (j : (⟨3, ![C, A, B]⟩ : Shape).Idx) (k : d.contr.Idx) :
    (d.rhsIdx j k 2).val = (k ⟨0, by rw [h.rank_contr]; exact Nat.one_pos⟩).val :=
  d.rhsIdx_val_of_single h.rc j k

/-- The contraction's sum, re-indexed by the shared axis: ∑ q < K, w (c, q) · x (a, b, q). -/
theorem RowsStack.sum_eq (h : RowsStack d) (w : (⟨2, ![C, K]⟩ : Shape).Idx → EReal) (x : (⟨3, ![A, B, K]⟩ : Shape).Idx → EReal)
    (j : (⟨3, ![C, A, B]⟩ : Shape).Idx) :
    ∑ k : d.contr.Idx, w (d.lhsIdx j k) * x (d.rhsIdx j k) = ∑ q : Fin K, w (ix2 (j 0) q) * x (ix3 (j 1) (j 2) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result axis 0, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result axis 1, result axis 2, q)
  have e2 : d.rhsIdx j ((contrEquiv1 d K h.rank_contr h.size_contr).symm q) = ix3 (j 1) (j 2) q := by
    funext a
    match a with
    | ⟨0, _⟩ => exact Fin.ext (h.rhs_outer j _)
    | ⟨1, _⟩ => exact Fin.ext (h.rhs_inner j _)
    | ⟨2, _⟩ => exact Fin.ext ((h.rhs_col j _).trans hk)
  exact congrArg₂ (· * ·) (congrArg w e1) (congrArg x e2)

/-- `tpu.matmul` into the zero accumulator, at an entry, at the ideal values (operands of any float formats). -/
theorem RowsStack.matmul_zero_apply {φ₁ φ₂ : FTy} (h : RowsStack d) (prec : Option ContractPrecision)
    (w : FVec Ideal ⟨2, ![C, K]⟩ φ₁) (x : FVec Ideal ⟨3, ![A, B, K]⟩ φ₂) (j : (⟨3, ![C, A, B]⟩ : Shape).Idx) :
    matmul (F := Ideal) d prec w x (constant ⟨3, ![C, A, B]⟩ .f32 0x00000000#32) j
      = ∑ q : Fin K, w (ix2 (j 0) q) * x (ix3 (j 1) (j 2) q) :=
  (Ideal.matmul_constant_zero_apply d prec w x j).trans (h.sum_eq w x j)

/-- The host's `dot_general`, at an entry, at the ideal values. -/
theorem RowsStack.dotGeneral_apply {φ₁ φ₂ : FTy} (h : RowsStack d) (prec : Option ContractPrecision)
    (w : FVec Ideal ⟨2, ![C, K]⟩ φ₁) (x : FVec Ideal ⟨3, ![A, B, K]⟩ φ₂) (j : (⟨3, ![C, A, B]⟩ : Shape).Idx) :
    Host.dotGeneral (F := Ideal) d prec w x j = ∑ q : Fin K, w (ix2 (j 0) q) * x (ix3 (j 1) (j 2) q) :=
  (Ideal.dotGeneral_apply d prec .single w x j).trans (h.sum_eq w x j)

end Cert.Lib.DotRowsStack

end
-- ==== Proof.LibGatherAxis1.lean ====
/-
  A gather of whole slabs along axis 1 of a rank-4 array, read at one entry.

  The operand is [B, N, D, L]; the start indices are an [n × 1] column of words, each naming a position on axis 1;
  the result is [B, n, D, L]: its axes 0, 2, 3 are the operand's axes 0, 2, 3 taken whole (offset axes), its axis 1
  runs over the column. Entry (b, h, dh, l) of the result is the operand's entry (b, r, dh, l), where r is word h of
  the column read signed and clamped into [0, N − 1].
-/
import Idealize.ShloMosaic.PureOps.ShapeOps
import Idealize.ShloMosaic.Lib.ValueIdx

noncomputable section

namespace Cert.Lib.GatherAxis1

open Idealize.ShloMosaic Idealize.ShloMosaic.ValueIdx

/-- The position on an axis of length N that a start-index word names: read signed, clamped into [0, N − 1]. -/
def clampPos {w : ℕ} (N : ℕ) (hN : 0 < N) (v : BitVec w) : Fin N := ⟨min v.toInt.toNat (N - 1), by omega⟩

/-- Reading equal lists at equal positions gives the same element. -/
private theorem getElem_congr {α : Type} (l l' : List α) (h : l = l') (k k' : ℕ) (hk : k < l.length) (hk' : k' < l'.length)
    (hkk : k = k') : l[k] = l'[k'] := by subst h; subst hkk; rfl

/-- A gather along axis 1 of an [B, N, D, L] operand through a column of indices, read at (b, h, dh, l). -/
theorem gather_axis1_apply {α : Type} {w B N n D L : ℕ} (hN : 0 < N)
    (d : GatherDims ⟨4, ![B, N, D, L]⟩ ⟨2, ![n, 1]⟩ ⟨4, ![B, n, D, L]⟩)
    (hoff : d.offsetDims = [0, 2, 3]) (hcoll : d.collapsedSliceDims = [1]) (hob : d.operandBatchingDims = [])
    (hsim : d.startIndexMap = [1]) (hivd : d.indexVectorDim = 1)
    (x : (⟨4, ![B, N, D, L]⟩ : Shape).Idx → α) (idx : IVec ⟨2, ![n, 1]⟩ w)
    (b : Fin B) (h : Fin n) (dh : Fin D) (l : Fin L) :
    Host.gather d x idx (ix4 b h dh l) = x (ix4 b (clampPos N hN (idx (ix2 h 0))) dh l) := by
  unfold Host.gather
  congr 1
  funext a
  apply Fin.ext
  have hb : ∀ a, a ∉ d.operandBatchingDims := by intro a; rw [hob]; exact List.not_mem_nil
  -- the operand's axes taken whole, in order
  have hsk : d.sKept = [0, 2, 3] := by
    show (List.finRange 4).filter (· ∉ d.collapsedSliceDims ++ d.operandBatchingDims) = _
    rw [hcoll, hob]; rfl
  -- an axis taken whole reads the result's coordinate on the offset axis in its position, from 0
  have hwhole : ∀ (a : Fin 4) (p : ℕ) (a' : Fin 4), a ∈ d.sKept → a ∉ d.startIndexMap → List.idxOf a [0, 2, 3] = p →
      ([0, 2, 3] : List (Fin 4))[p]? = some a' →
      d.start (ix4 b h dh l) idx a + d.batchCoord (ix4 b h dh l) a + d.offCoord (ix4 b h dh l) a
        = ((ix4 b h dh l : (⟨4, ![B, n, D, L]⟩ : Shape).Idx) a').val := by
    intro a p a' hk hm hp hp'
    rw [GatherDims.batchCoord_eq_zero _ _ _ (hb _)]
    unfold GatherDims.start
    rw [dif_neg hm]
    unfold GatherDims.offCoord
    rw [dif_pos hk]
    simp only [Nat.zero_add, Nat.add_zero]
    have hlt : p < ([0, 2, 3] : List (Fin 4)).length := by
      rcases Nat.lt_or_ge p 3 with h3 | h3
      · exact h3
      · rw [List.getElem?_eq_none (by simpa using h3)] at hp'; cases hp'
    have e : d.offsetDims[List.idxOf a d.sKept]'(by
        rw [d.offset_length]; exact List.idxOf_lt_length_iff.2 hk) = a' := by
      rw [getElem_congr d.offsetDims [0, 2, 3] hoff _ p _ hlt (by rw [hsk]; exact hp)]
      rw [List.getElem?_eq_getElem hlt] at hp'
      exact Option.some.inj hp'
    rw [e]
  match a with
  | ⟨0, _⟩ =>
    exact hwhole 0 0 0 (by rw [hsk]; exact List.mem_cons_self) (by rw [hsim]; show (0 : Fin 4) ∉ ([1] : List (Fin 4)); decide) (by show List.idxOf (0 : Fin 4) ([0, 2, 3] : List (Fin 4)) = 0; decide) rfl
  | ⟨1, _⟩ =>
    have hk : (1 : Fin 4) ∉ d.sKept := by rw [hsk]; show (1 : Fin 4) ∉ ([0, 2, 3] : List (Fin 4)); decide
    have hm : (1 : Fin 4) ∈ d.startIndexMap := by rw [hsim]; exact List.mem_singleton.mpr rfl
    have hsl : d.sliceSizes 1 = 1 := d.slice_collapsed 1 (by rw [hcoll]; exact List.mem_singleton.mpr rfl)
    show d.start (ix4 b h dh l) idx 1 + d.batchCoord (ix4 b h dh l) 1 + d.offCoord (ix4 b h dh l) 1
      = min (idx (ix2 h 0)).toInt.toNat (N - 1)
    rw [GatherDims.batchCoord_eq_zero _ _ _ (hb _), GatherDims.offCoord_eq_zero _ _ _ hk]
    simp only [Nat.add_zero]
    unfold GatherDims.start
    rw [dif_pos hm]
    -- the word read is the column's entry h
    have hsi : d.siIdx (ix4 b h dh l) ⟨List.idxOf (1 : Fin 4) d.startIndexMap, List.idxOf_lt_length_iff.2 hm⟩ = ix2 h 0 := by
      funext c
      match c with
      | ⟨0, _⟩ =>
        unfold GatherDims.siIdx
        rw [dif_neg (by rw [hivd]; simp)]
        unfold GatherDims.siCoord
        apply Fin.ext
        simp only [Fin.val_cast]
        -- the result's one axis that is not an offset axis is axis 1
        have hX : ∀ X : Fin 4, X ∈ d.batchDims → ((ix4 b h dh l : (⟨4, ![B, n, D, L]⟩ : Shape).Idx) X).val = h.val := by
          intro X hX
          have h1 : X ∉ d.offsetDims := by simpa [GatherDims.batchDims, Shape.kept] using hX
          rw [hoff] at h1
          match X, h1 with
          | ⟨0, _⟩, h => exact absurd List.mem_cons_self h
          | ⟨1, _⟩, _ => rfl
          | ⟨2, _⟩, h => exact absurd (List.mem_cons_of_mem _ List.mem_cons_self) h
          | ⟨3, _⟩, h => exact absurd (List.mem_cons_of_mem _ (List.mem_cons_of_mem _ List.mem_cons_self)) h
        exact hX _ (List.getElem_mem _)
      | ⟨1, _⟩ =>
        unfold GatherDims.siIdx
        rw [dif_pos (by rw [hivd])]
        apply Fin.ext
        show List.idxOf (1 : Fin 4) d.startIndexMap = 0
        rw [hsim]; simp
    rw [hsi]
    show min (idx (ix2 h 0)).toInt.toNat (N - d.sliceSizes 1) = _
    rw [hsl]
  | ⟨2, _⟩ =>
    exact hwhole 2 1 2 (by rw [hsk]; exact List.mem_cons_of_mem _ List.mem_cons_self) (by rw [hsim]; show (2 : Fin 4) ∉ ([1] : List (Fin 4)); decide) (by show List.idxOf (2 : Fin 4) ([0, 2, 3] : List (Fin 4)) = 1; decide) rfl
  | ⟨3, _⟩ =>
    exact hwhole 3 2 3 (by rw [hsk]; exact List.mem_cons_of_mem _ (List.mem_cons_of_mem _ List.mem_cons_self)) (by rw [hsim]; show (3 : Fin 4) ∉ ([1] : List (Fin 4)); decide) (by show List.idxOf (3 : Fin 4) ([0, 2, 3] : List (Fin 4)) = 2; decide) rfl

end Cert.Lib.GatherAxis1

end
-- ==== Proof.RefValue.lean ====
/-
  The reference's composed term, read entry by entry at the ideal values, is the packed result.

  A projection read at (b, r, l): the transpose exchanges the first two coordinates, the product of the weight rows
  with x is the sum over the width axis, the twice-broadcast bias is the bias of row r. The head table holds h / 4 at
  h < 16, so channel ch of an expanded gate — position (ch / 64, ch % 64) of the [16, 64] view — reads head
  (ch / 64) / 4 = ch / 256 at row ch % 64 of the [4, 64] view: row (ch / 256) · 64 + ch % 64. The concatenation reads
  the piece its channel coordinate falls in.
-/
import proofs.«107365_j81681688035849_1_alg».proof.Proof.RefTerm
import proofs.«107365_j81681688035849_1_alg».proof.Proof.Spec
import proofs.«107365_j81681688035849_1_alg».proof.Proof.LibDotRowsStack
import proofs.«107365_j81681688035849_1_alg».proof.Proof.LibGatherAxis1
import Idealize.ShloMosaic.Lib.Pipeline.Value

noncomputable section

namespace Cert.ReferenceIdeal.RefValue

open Cert.ReferenceIdeal Cert.ReferenceIdeal.Gen Idealize.ShloMosaic Idealize.ShloMosaic.ValueIdx
open Cert.Lib.DotRowsStack Cert.Lib.GatherAxis1

/-! ## A projection at an entry -/

/-- The product of weight rows with x, transposed to sample-major, at (b, r, l): the sum over the width axis. -/
theorem transpose_dot_apply {C : Nat} (d : DotDims ⟨2, ![C, 2048]⟩ ⟨3, ![4, 4096, 2048]⟩ ⟨3, ![C, 4, 4096]⟩) (hd : RowsStack d)
    (ht : (⟨3, ![C, 4, 4096]⟩ : Shape).Transposes [1, 0, 2] ⟨3, ![4, C, 4096]⟩)
    (W : FVec Ideal ⟨2, ![C, 2048]⟩ .f32) (x : FVec Ideal ⟨3, ![4, 4096, 2048]⟩ .f32) (b : Fin 4) (r : Fin C) (l : Fin 4096) :
    transpose ⟨3, ![4, C, 4096]⟩ [1, 0, 2] (Host.dotGeneral (F := Ideal) d none W x) ht (ix3 b r l) = Cert.Spec.proj W x b r l := by
  rw [transpose_apply [1, 0, 2] _ ht (ix3 b r l) (ix3 r b l)
    (fun a => match a with | ⟨0, _⟩ => rfl | ⟨1, _⟩ => rfl | ⟨2, _⟩ => rfl)]
  rw [hd.dotGeneral_apply none W x (ix3 r b l)]
  rfl

/-- The bias broadcast over samples and tokens, at (b, r, l): the bias of row r. -/
theorem bias_apply {α : Type} {C : Nat} (h1 : (⟨1, ![C]⟩ : Shape).BroadcastsInDim ⟨3, ![1, C, 1]⟩ (![1] : Fin 1 → Fin 3))
    (h2 : (⟨3, ![1, C, 1]⟩ : Shape).BroadcastsInDim ⟨3, ![4, C, 4096]⟩ (![0, 1, 2] : Fin 3 → Fin 3))
    (β : (⟨1, ![C]⟩ : Shape).Idx → α) (b : Fin 4) (r : Fin C) (l : Fin 4096) :
    broadcastInDim ⟨3, ![4, C, 4096]⟩ ![0, 1, 2] h2 (broadcastInDim ⟨3, ![1, C, 1]⟩ ![1] h1 β) (ix3 b r l) = β (ix1 r) := by
  have hr : (if C = 1 then 0 else r.val) = r.val := by
    split
    · have := r.isLt; omega
    · rfl
  have hk2 : ∀ a : Fin 3, ((ix3 0 r 0 : (⟨3, ![1, C, 1]⟩ : Shape).Idx) a).val
      = if (⟨3, ![1, C, 1]⟩ : Shape).size a = 1 then 0
        else ((ix3 b r l : (⟨3, ![4, C, 4096]⟩ : Shape).Idx) ((![0, 1, 2] : Fin 3 → Fin 3) a)).val := fun a =>
    match a with
    | ⟨0, _⟩ => rfl
    | ⟨1, _⟩ => hr.symm
    | ⟨2, _⟩ => rfl
  have hk1 : ∀ a : Fin 1, ((ix1 r : (⟨1, ![C]⟩ : Shape).Idx) a).val
      = if (⟨1, ![C]⟩ : Shape).size a = 1 then 0
        else ((ix3 0 r 0 : (⟨3, ![1, C, 1]⟩ : Shape).Idx) ((![1] : Fin 1 → Fin 3) a)).val := fun a =>
    match a with
    | ⟨0, _⟩ => hr.symm
  rw [broadcastInDim_apply ![0, 1, 2] h2 _ (ix3 b r l) (ix3 0 r 0) hk2,
    broadcastInDim_apply ![1] h1 β (ix3 0 r 0) (ix1 r) hk1]

theorem rowsStack16 : RowsStack dot_S16x2048_S4x4096x2048_S16x4x4096_1_2_0_01_n_n := ⟨rfl, rfl, rfl, rfl, rfl, rfl⟩
theorem rowsStack256 : RowsStack dot_S256x2048_S4x4096x2048_S256x4x4096_1_2_0_01_n_n := ⟨rfl, rfl, rfl, rfl, rfl, rfl⟩
theorem rowsStack1024 : RowsStack dot_S1024x2048_S4x4096x2048_S1024x4x4096_1_2_0_01_n_n := ⟨rfl, rfl, rfl, rfl, rfl, rfl⟩

/-- The projection A with its bias at (b, r, l). -/
theorem termA_apply (x : FVec Ideal S4x4096x2048 .f32) (Wa : FVec Ideal S16x2048 .f32) (ba : FVec Ideal S16 .f32)
    (b : Fin 4) (r : Fin 16) (l : Fin 4096) :
    RefTerm.termA (F := Ideal) x Wa ba (ix3 b r l) = Cert.Spec.projB Wa ba x b r l := by
  unfold RefTerm.termA Cert.Spec.projB
  rw [addf_apply, transpose_dot_apply _ rowsStack16, bias_apply]

/-- A key/value projection with its bias at (b, r, l). -/
theorem termKV_apply (x : FVec Ideal S4x4096x2048 .f32) (W : FVec Ideal S256x2048 .f32) (β : FVec Ideal S256 .f32)
    (b : Fin 4) (r : Fin 256) (l : Fin 4096) :
    RefTerm.termKV (F := Ideal) x W β (ix3 b r l) = Cert.Spec.projB W β x b r l := by
  unfold RefTerm.termKV Cert.Spec.projB
  rw [addf_apply, transpose_dot_apply _ rowsStack256, bias_apply]

/-- The projection V at (b, r, l). -/
theorem termV_apply (x : FVec Ideal S4x4096x2048 .f32) (Wv : FVec Ideal S1024x2048 .f32)
    (b : Fin 4) (r : Fin 1024) (l : Fin 4096) :
    RefTerm.termV (F := Ideal) x Wv (ix3 b r l) = Cert.Spec.proj Wv x b r l := by
  unfold RefTerm.termV
  exact transpose_dot_apply _ rowsStack1024 _ Wv x b r l

/-! ## The head table and an expanded gate -/

/-- The head table at h: h / 4. -/
theorem headCol_apply (h : Fin 16) : RefTerm.headCol (ix2 h 0) = BitVec.ofNat 32 (h.val / 4) := by
  fin_cases h <;> rfl

/-- The head a gather reads for query head h: h / 4 (the table's word is in range, the clamp leaves it). -/
theorem headPos (h : Fin 16) : clampPos 4 (by decide) (RefTerm.headCol (ix2 h 0)) = ⟨h.val / 4, by omega⟩ := by
  rw [headCol_apply]
  fin_cases h <;> rfl

/-- Channel ch of an expanded gate reads row (ch / 256) · 64 + ch % 64. -/
theorem expand_apply (v : FVec Ideal S4x256x4096 .f32) (b : Fin 4) (ch : Fin 1024) (l : Fin 4096) :
    RefTerm.expand (F := Ideal) v (ix3 b ch l) = v (ix3 b (Cert.Spec.kvRow ch.val ch.isLt) l) := by
  unfold RefTerm.expand
  have hch := ch.isLt
  -- channel ch is position (ch / 64, ch % 64) of the [16, 64] view
  rw [shapeCast_apply _ shapeCasts_S4x16x64x4096_S4x1024x4096 (ix3 b ch l)
    (ix4 b (⟨ch.val / 64, by omega⟩ : Fin 16) (⟨ch.val % 64, by omega⟩ : Fin 64) l)
    (by
      rw [Shape.rowMajor_val_four, Shape.rowMajor_val_three]
      show ((b.val * 16 + ch.val / 64) * 64 + ch.val % 64) * 4096 + l.val = (b.val * 1024 + ch.val) * 4096 + l.val
      omega)]
  -- the gather reads head (ch / 64) / 4
  rw [gather_axis1_apply (by decide) _ rfl rfl rfl rfl rfl, headPos]
  -- position (g, dh) of the [4, 64] view is row g · 64 + dh
  rw [shapeCast_apply v shapeCasts_S4x256x4096_S4x4x64x4096 _
    (ix3 b (Cert.Spec.kvRow ch.val ch.isLt) l)
    (by
      rw [Shape.rowMajor_val_four, Shape.rowMajor_val_three]
      show (b.val * 256 + (ch.val / 256 * 64 + ch.val % 64)) * 4096 + l.val
        = ((b.val * 4 + ch.val / 64 / 4) * 64 + ch.val % 64) * 4096 + l.val
      omega)]

/-! ## The packed result -/

theorem refTerm_eq (x : FVec Ideal S4x4096x2048 .f32) (Wa : FVec Ideal S16x2048 .f32) (ba : FVec Ideal S16 .f32)
    (Wb : FVec Ideal S256x2048 .f32) (bb : FVec Ideal S256 .f32) (Wc : FVec Ideal S256x2048 .f32) (bc : FVec Ideal S256 .f32)
    (Wv : FVec Ideal S1024x2048 .f32) :
    RefTerm.refTerm (F := Ideal) x Wa ba Wb bb Wc bc Wv = Cert.Spec.G x Wa ba Wb bb Wc bc Wv := by
  funext j
  have hj1 : (j 1).val < 3088 := (j 1).isLt
  unfold RefTerm.refTerm Cert.Spec.G
  by_cases h1 : (j 1).val < 1024
  · rw [dif_pos h1]
    refine (concatenate_apply_piece 1 _ _ j 0 (by show (0 : Nat) < 4; decide) S4x1024x4096 _ rfl rfl 0 rfl
      (ix3 (j 0) ⟨(j 1).val, h1⟩ (j 2))
      (fun b hb => match b, hb with
        | ⟨0, _⟩, _ => rfl
        | ⟨1, _⟩, hb => absurd rfl hb
        | ⟨2, _⟩, _ => rfl)
      (by show 0 + (j 1).val = (j 1).val; omega)).trans ?_
    exact (expand_apply _ (j 0) ⟨(j 1).val, h1⟩ (j 2)).trans (termKV_apply x Wb bb (j 0) _ (j 2))
  · rw [dif_neg h1]
    by_cases h2 : (j 1).val < 2048
    · rw [dif_pos h2]
      refine (concatenate_apply_piece 1 _ _ j 1 (by show (1 : Nat) < 4; decide) S4x1024x4096 _ rfl rfl 1024 rfl
        (ix3 (j 0) ⟨(j 1).val - 1024, by omega⟩ (j 2))
        (fun b hb => match b, hb with
          | ⟨0, _⟩, _ => rfl
          | ⟨1, _⟩, hb => absurd rfl hb
          | ⟨2, _⟩, _ => rfl)
        (by show 1024 + ((j 1).val - 1024) = (j 1).val; omega)).trans ?_
      exact termV_apply x Wv (j 0) _ (j 2)
    · rw [dif_neg h2]
      by_cases h3 : (j 1).val < 3072
      · rw [dif_pos h3]
        refine (concatenate_apply_piece 1 _ _ j 2 (by show (2 : Nat) < 4; decide) S4x1024x4096 _ rfl rfl 2048 rfl
          (ix3 (j 0) ⟨(j 1).val - 2048, by omega⟩ (j 2))
          (fun b hb => match b, hb with
            | ⟨0, _⟩, _ => rfl
            | ⟨1, _⟩, hb => absurd rfl hb
            | ⟨2, _⟩, _ => rfl)
          (by show 2048 + ((j 1).val - 2048) = (j 1).val; omega)).trans ?_
        exact (expand_apply _ (j 0) ⟨(j 1).val - 2048, by omega⟩ (j 2)).trans (termKV_apply x Wc bc (j 0) _ (j 2))
      · rw [dif_neg h3]
        refine (concatenate_apply_piece 1 _ _ j 3 (by show (3 : Nat) < 4; decide) S4x16x4096 _ rfl rfl 3072 rfl
          (ix3 (j 0) ⟨(j 1).val - 3072, by omega⟩ (j 2))
          (fun b hb => match b, hb with
            | ⟨0, _⟩, _ => rfl
            | ⟨1, _⟩, hb => absurd rfl hb
            | ⟨2, _⟩, _ => rfl)
          (by show 3072 + ((j 1).val - 3072) = (j 1).val; omega)).trans ?_
        exact termA_apply x Wa ba (j 0) _ (j 2)

end Cert.ReferenceIdeal.RefValue

end
-- ==== Proof.lean ====
/-
  The certificate: a fused projection kernel against its reference.

  Both programs compute, from x [4, 4096, 2048] and four weight arrays with three biases, the packed array [4, 3088, 4096]
  of Proof/Spec.lean: channel-major projections of every token, the two key/value projections with each head repeated for
  its group of four, in the order expanded Bk, V, expanded Ck, A. The kernel computes it a (sample, 256-token tile) block at a
  time with the weights narrowed to a 16-bit format, which ideal values do not see; the reference computes whole-array
  products, transposes them, and repeats heads by a gather through the table ⌊h / 4⌋. Multiplication order and the
  summed axis are the same on both sides, so the two results are equal as extended reals entry by entry, with no use of
  finiteness. The idealization rewrote nothing, so the kernel's idealization claim is trivial.
-/
import proofs.«107365_j81681688035849_1_alg».proof.Defs
import proofs.«107365_j81681688035849_1_alg».proof.Proof.Gen.Kernel
import proofs.«107365_j81681688035849_1_alg».proof.Proof.Gen.Kernel.Skeleton
import proofs.«107365_j81681688035849_1_alg».proof.Proof.Gen.Kernel.Launch
import proofs.«107365_j81681688035849_1_alg».proof.Proof.Gen.Kernel.Points
import proofs.«107365_j81681688035849_1_alg».proof.Proof.Gen.Kernel.Frame
import proofs.«107365_j81681688035849_1_alg».proof.Proof.Gen.KernelIdeal
import proofs.«107365_j81681688035849_1_alg».proof.Proof.Gen.KernelIdeal.Skeleton
import proofs.«107365_j81681688035849_1_alg».proof.Proof.Gen.KernelIdeal.Launch
import proofs.«107365_j81681688035849_1_alg».proof.Proof.Gen.KernelIdeal.Points
import proofs.«107365_j81681688035849_1_alg».proof.Proof.Gen.KernelIdeal.Frame
import proofs.«107365_j81681688035849_1_alg».proof.Proof.Gen.KernelIdeal.Value
import proofs.«107365_j81681688035849_1_alg».proof.Proof.Gen.ReferenceIdeal
import proofs.«107365_j81681688035849_1_alg».proof.Proof.Gen.Pre_finite_inputs
import Idealize.ShloMosaic.Adequacy
import Idealize.ShloMosaic.Init

import proofs.«107365_j81681688035849_1_alg».proof.Proof.KValue
import proofs.«107365_j81681688035849_1_alg».proof.Proof.RefRun
import proofs.«107365_j81681688035849_1_alg».proof.Proof.RefValue

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The kernel ends with the packed result of its arguments, the reference with its composed term of arguments that
    agree, and that term is the packed result. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  refine (Cert.ReferenceIdeal.RefValue.refTerm_eq _ _ _ _ _ _ _ _).trans ?_
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
